-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8 : Shape := ⟨1, ![8]⟩
abbrev S4096x4096 : Shape := ⟨2, ![4096, 4096]⟩
abbrev S16x4096x16 : Shape := ⟨3, ![16, 4096, 16]⟩
abbrev S16x16x4096 : Shape := ⟨3, ![16, 16, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096x16 : S_.BroadcastsInDim S16x4096x16 (![] : Fin 0 → Fin S16x4096x16.rank)
  reducesTo_S16x4096x16_S_d0_1_2 : S16x4096x16.ReducesTo [0, 1, 2] S_
  bcast_S_S16x16x4096 : S_.BroadcastsInDim S16x16x4096 (![] : Fin 0 → Fin S16x16x4096.rank)
  reducesTo_S16x16x4096_S_d0_1_2 : S16x16x4096.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg1 : IVec S8 32) (main_v13 : IVec S_ 1) (main_v16 : IVec S16x16x4096 1) : IVec S_ 1 :=
  let main_c_5 : IVec S_ 1 := constantI S_ 1 1#1
  let main_v17 : IVec S_ 1 := (fun x v => Host.reduce IntOp.andi x v reducesTo_S16x16x4096_S_d0_1_2 h_S_) main_v16 main_c_5
  let main_v18 : IVec S_ 1 := andi main_v13 main_v17
  let main_c_6 : IVec S_ 32 := constantI S_ 32 0#32
  let main_v19 : IVec S8 32 := broadcastInDim S8 ![] bcast_S_S8 main_c_6
  let main_v20 : IVec S8 1 := cmpi .sge main_arg1 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  let main_c_8 : IVec S_ 32 := constantI S_ 32 16#32
  let main_v23 : IVec S8 32 := broadcastInDim S8 ![] bcast_S_S8 main_c_8
  let main_v24 : IVec S8 1 := cmpi .slt main_arg1 main_v23
  let main_c_9 : IVec S_ 1 := constantI S_ 1 1#1
  let main_v25 : IVec S_ 1 := (fun x v => Host.reduce IntOp.andi x v reducesTo_S8_S_d0 h_S_) main_v24 main_c_9
  let main_v26 : IVec S_ 1 := andi main_v22 main_v25
  main_v26

def fn {F : FTy → Type} [FloatOps F] (main_arg0 : FVec F S8x2048x4096 .f32) (main_arg1 : IVec S8 32) (main_arg2 : FVec F S4096x4096 .f32) (main_arg3 : FVec F S16x4096x16 .f32) (main_arg4 : FVec F S16x16x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096x16 .f32 := Host.absf main_arg3
  let main_cst_2 : FVec F S_ .f32 := constant S_ .f32 0x7F800000#32
  let main_v10 : FVec F S16x4096x16 .f32 := broadcastInDim S16x4096x16 ![] bcast_S_S16x4096x16 main_cst_2
  let main_v11 : IVec S16x4096x16 1 := cmpf .olt main_v9 main_v10
  let main_c_3 : IVec S_ 1 := constantI S_ 1 1#1
  let main_v12 : IVec S_ 1 := (fun x v => Host.reduce IntOp.andi x v reducesTo_S16x4096x16_S_d0_1_2 h_S_) main_v11 main_c_3
  let main_v13 : IVec S_ 1 := andi main_v8 main_v12
  let main_v14 : FVec F S16x16x4096 .f32 := Host.absf main_arg4
  let main_cst_4 : FVec F S_ .f32 := constant S_ .f32 0x7F800000#32
  let main_v15 : FVec F S16x16x4096 .f32 := broadcastInDim S16x16x4096 ![] bcast_S_S16x16x4096 main_cst_4
  let main_v16 : IVec S16x16x4096 1 := cmpf .olt main_v14 main_v15
  fn_part1 (F := F) main_arg1 main_v13 main_v16
-- ==== Kernel.lean ====
abbrev S8x2048x4096 : Shape := ⟨3, ![8, 2048, 4096]⟩
abbrev S8 : Shape := ⟨1, ![8]⟩
abbrev S4096x4096 : Shape := ⟨2, ![4096, 4096]⟩
abbrev S16x4096x16 : Shape := ⟨3, ![16, 4096, 16]⟩
abbrev S16x16x4096 : Shape := ⟨3, ![16, 16, 4096]⟩
abbrev S_ : Shape := ⟨0, ![]⟩
abbrev S8x1 : Shape := ⟨2, ![8, 1]⟩
abbrev S1 : Shape := ⟨1, ![1]⟩
abbrev S1x1 : Shape := ⟨2, ![1, 1]⟩
abbrev S8x4096x16 : Shape := ⟨3, ![8, 4096, 16]⟩
abbrev S8x2048x16 : Shape := ⟨3, ![8, 2048, 16]⟩
abbrev S1x2048x1024 : Shape := ⟨3, ![1, 2048, 1024]⟩
abbrev S1024x1024 : Shape := ⟨2, ![1024, 1024]⟩
abbrev S1x2048x16 : Shape := ⟨3, ![1, 2048, 16]⟩
abbrev S1x16x1024 : Shape := ⟨3, ![1, 16, 1024]⟩
abbrev S2048x1024 : Shape := ⟨2, ![2048, 1024]⟩
abbrev S2048x16 : Shape := ⟨2, ![2048, 16]⟩
abbrev S16x1024 : Shape := ⟨2, ![16, 1024]⟩

abbrev nBuf : Space → Nat
  | .hbm => 42
  | .vmem => 10
  | .smem => 1
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S4096x4096, .f32⟩
  | .hbm, ⟨3, _⟩ => ⟨S16x4096x16, .f32⟩
  | .hbm, ⟨4, _⟩ => ⟨S16x16x4096, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8x2048x4096, .bf16⟩
  | .hbm, ⟨13, _⟩ => ⟨S4096x4096, .bf16⟩
  | .hbm, ⟨14, _⟩ => ⟨S16x16x4096, .bf16⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S1, .i32⟩
  | .hbm, ⟨24, _⟩ => ⟨S_, .i32⟩
  | .hbm, ⟨25, _⟩ => ⟨S8x1, .i32⟩
  | .hbm, ⟨26, _⟩ => ⟨S8x1, .i1⟩
  | .hbm, ⟨27, _⟩ => ⟨S1x1, .i32⟩
  | .hbm, ⟨28, _⟩ => ⟨S8x1, .i32⟩
  | .hbm, ⟨29, _⟩ => ⟨S8x1, .i1⟩
  | .hbm, ⟨30, _⟩ => ⟨S8x1, .i1⟩
  | .hbm, ⟨31, _⟩ => ⟨S_, .i1⟩
  | .hbm, ⟨32, _⟩ => ⟨S8, .i1⟩
  | .hbm, ⟨33, _⟩ => ⟨S8x4096x16, .f32⟩
  | .hbm, ⟨34, _⟩ => ⟨S8x4096x16, .i1⟩
  | .hbm, ⟨35, _⟩ => ⟨S_, .f32⟩
  | .hbm, ⟨36, _⟩ => ⟨S8x4096x16, .f32⟩
  | .hbm, ⟨37, _⟩ => ⟨S8x4096x16, .f32⟩
  | .hbm, ⟨38, _⟩ => ⟨S8x4096x16, .bf16⟩
  | .hbm, ⟨39, _⟩ => ⟨S8x2048x16, .f32⟩
  | .hbm, ⟨40, _⟩ => ⟨S8x2048x16, .bf16⟩
  | .hbm, ⟨41, _⟩ => ⟨S8x2048x4096, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x16, .bf16⟩
  | .local _ .vmem, ⟨5, _⟩ => ⟨S1x2048x16, .bf16⟩
  | .local _ .vmem, ⟨6, _⟩ => ⟨S1x16x1024, .bf16⟩
  | .local _ .vmem, ⟨7, _⟩ => ⟨S1x16x1024, .bf16⟩
  | .local _ .vmem, ⟨8, _⟩ => ⟨S1x2048x1024, .f32⟩
  | .local _ .vmem, ⟨9, _⟩ => ⟨S1x2048x1024, .f32⟩
  | .local _ .smem, ⟨0, _⟩ => ⟨S8, .i32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .ne arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8 : S_.BroadcastsInDim S8 (![] : Fin 0 → Fin S8.rank)
  bitsLt_bf16_f32 : FTy.bits .bf16 < FTy.bits .f32
  bcast_S8_S8x1_0 : S8.BroadcastsInDim S8x1 (![0] : Fin 1 → Fin S8x1.rank)
  bcast_S_S8x1 : S_.BroadcastsInDim S8x1 (![] : Fin 0 → Fin S8x1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  reducesTo_S8x1_S8_d1 : S8x1.ReducesTo [1] S8
  h_S_ : 0 < S_.numel
  bcast_S8_S8x4096x16_0 : S8.BroadcastsInDim S8x4096x16 (![0] : Fin 1 → Fin S8x4096x16.rank)
  bcast_S_S8x4096x16 : S_.BroadcastsInDim S8x4096x16 (![] : Fin 0 → Fin S8x4096x16.rank)
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S2048x1024_S1x2048x1024 : S2048x1024.ShapeCasts S1x2048x1024
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  gather_S16x4096x16_S8x1_S8x4096x16_12_0_n_n_0_1_1409616_wf : GatherDims.WF S16x4096x16 S8x1 S8x4096x16 [1, 2] [0] [] [0] [] 1 ![1, 4096, 16]
  dot_S8x2048x4096_S8x4096x16_S8x2048x16_2_1_1_2_0_0_wf : DotDims.WF S8x2048x4096 S8x4096x16 S8x2048x16 [2] [1] [1] [2] [0] [0]
  dot_S2048x1024_S1024x1024_S2048x1024_1_0_0_1_n_n_wf : DotDims.WF S2048x1024 S1024x1024 S2048x1024 [1] [0] [0] [1] [] []
  dot_S2048x16_S16x1024_S2048x1024_1_0_0_1_n_n_wf : DotDims.WF S2048x16 S16x1024 S2048x1024 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x4096.size a
  hwx0_0 : ∀ i : grid0.Coords, EltTy.bits .bf16 = 32 ∨ (Rect.block (s := S8x2048x4096) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x16.size a ≤ S8x2048x16.size a
  hwx0_2 : ∀ i : grid0.Coords, EltTy.bits .bf16 = 32 ∨ (Rect.block (s := S8x2048x16) S1x2048x16.size (cc0_transform_2 i) (hinb0_2 i)).WholeWords (EltTy.packing .bf16)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x4096.size a
  hwx0_4 : ∀ i : grid0.Coords, EltTy.bits .f32 = 32 ∨ (Rect.block (s := S8x2048x4096) S1x2048x1024.size (cc0_transform_4 i) (hinb0_4 i)).WholeWords (EltTy.packing .f32)

variable [Facts₀]

def gather_S16x4096x16_S8x1_S8x4096x16_12_0_n_n_0_1_1409616 : GatherDims S16x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S16x4096x16_S8x1_S8x4096x16_12_0_n_n_0_1_1409616_wf
def dot_S8x2048x4096_S8x4096x16_S8x2048x16_2_1_1_2_0_0 : DotDims S8x2048x4096 S8x4096x16 S8x2048x16 where
  lhsContracting := [2]
  rhsContracting := [1]
  lhsNonContracting := [1]
  rhsNonContracting := [2]
  lhsBatch := [0]
  rhsBatch := [0]
  wf := dot_S8x2048x4096_S8x4096x16_S8x2048x16_2_1_1_2_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev spec0_0 : Pipeline.WinSpec sig grid0.rank :=
  Pipeline.WinSpec.ofSpec (Memref.whole main_v1) S1x2048x1024.size reads0_0 false false 2 stage0_0 sem0_0 nbuf0_0 hstage0_0

abbrev spec0_1 : Pipeline.WinSpec sig grid0.rank :=
  Pipeline.WinSpec.ofSpec (Memref.whole main_v2) S1024x1024.size reads0_1 false false 2 stage0_1 sem0_1 nbuf0_1 hstage0_1

abbrev spec0_2 : Pipeline.WinSpec sig grid0.rank :=
  Pipeline.WinSpec.ofSpec (Memref.whole main_v7) S1x2048x16.size reads0_2 false false 2 stage0_2 sem0_2 nbuf0_2 hstage0_2

abbrev spec0_3 : Pipeline.WinSpec sig grid0.rank :=
  Pipeline.WinSpec.ofSpec (Memref.whole main_v3) S1x16x1024.size reads0_3 false false 2 stage0_3 sem0_3 nbuf0_3 hstage0_3

abbrev spec0_4 : Pipeline.WinSpec sig grid0.rank :=
  Pipeline.WinSpec.ofSpec (Memref.whole main_v8) S1x2048x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x16x1024.size a ≤ S16x16x4096.size a), EltTy.bits .bf16 = 32 ∨ (Rect.block (s := S16x16x4096) S1x16x1024.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok i).elim fun _ h => h | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8x2048x4096 : Shape := ⟨3, ![8, 2048, 4096]⟩
abbrev S8 : Shape := ⟨1, ![8]⟩
abbrev S4096x4096 : Shape := ⟨2, ![4096, 4096]⟩
abbrev S16x4096x16 : Shape := ⟨3, ![16, 4096, 16]⟩
abbrev S16x16x4096 : Shape := ⟨3, ![16, 16, 4096]⟩
abbrev S_ : Shape := ⟨0, ![]⟩
abbrev S8x1 : Shape := ⟨2, ![8, 1]⟩
abbrev S8x4096x16 : Shape := ⟨3, ![8, 4096, 16]⟩
abbrev S8x16x4096 : Shape := ⟨3, ![8, 16, 4096]⟩
abbrev S8x2048x16 : Shape := ⟨3, ![8, 2048, 16]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8, .i32⟩
  | .hbm, ⟨2, _⟩ => ⟨S4096x4096, .f32⟩
  | .hbm, ⟨3, _⟩ => ⟨S16x4096x16, .f32⟩
  | .hbm, ⟨4, _⟩ => ⟨S16x16x4096, .f32⟩
  | .hbm, ⟨5, _⟩ => ⟨S8x2048x4096, .f32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x4096x16, .f32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S8x16x4096, .f32⟩
  | .hbm, ⟨24, _⟩ => ⟨S8x2048x16, .f32⟩
  | .hbm, ⟨25, _⟩ => ⟨S8x2048x4096, .f32⟩
  | .hbm, ⟨26, _⟩ => ⟨S_, .f32⟩
  | .hbm, ⟨27, _⟩ => ⟨S8x2048x4096, .f32⟩
  | .hbm, ⟨28, _⟩ => ⟨S8x2048x4096, .f32⟩
  | .hbm, ⟨29, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S_S8x2048x4096 : S_.BroadcastsInDim S8x2048x4096 (![] : Fin 0 → Fin S8x2048x4096.rank)
  dot_S8x2048x4096_S4096x4096_S8x2048x4096_2_0_01_1_n_n_wf : DotDims.WF S8x2048x4096 S4096x4096 S8x2048x4096 [2] [0] [0, 1] [1] [] []
  gather_S16x4096x16_S8x1_S8x4096x16_12_0_n_n_0_1_1409616_wf : GatherDims.WF S16x4096x16 S8x1 S8x4096x16 [1, 2] [0] [] [0] [] 1 ![1, 4096, 16]
  gather_S16x16x4096_S8x1_S8x16x4096_12_0_n_n_0_1_1164096_wf : GatherDims.WF S16x16x4096 S8x1 S8x16x4096 [1, 2] [0] [] [0] [] 1 ![1, 16, 4096]
  dot_S8x2048x4096_S8x4096x16_S8x2048x16_2_1_1_2_0_0_wf : DotDims.WF S8x2048x4096 S8x4096x16 S8x2048x16 [2] [1] [1] [2] [0] [0]
  dot_S8x2048x16_S8x16x4096_S8x2048x4096_2_1_1_2_0_0_wf : DotDims.WF S8x2048x16 S8x16x4096 S8x2048x4096 [2] [1] [1] [2] [0] [0]

variable [Facts₀]

def dot_S8x2048x4096_S4096x4096_S8x2048x4096_2_0_01_1_n_n : DotDims S8x2048x4096 S4096x4096 S8x2048x4096 where
  lhsContracting := [2]
  rhsContracting := [0]
  lhsNonContracting := [0, 1]
  rhsNonContracting := [1]
  lhsBatch := []
  rhsBatch := []
  wf := dot_S8x2048x4096_S4096x4096_S8x2048x4096_2_0_01_1_n_n_wf
def gather_S16x4096x16_S8x1_S8x4096x16_12_0_n_n_0_1_1409616 : GatherDims S16x4096x16 S8x1 S8x4096x16 where
  offsetDims := [1, 2]
  collapsedSliceDims := [0]
  operandBatchingDims := []
  startIndicesBatchingDims := []
  startIndexMap := [0]
  indexVectorDim := 1
  sliceSizes := ![1, 4096, 16]
  wf := gather_S16x4096x16_S8x1_S8x4096x16_12_0_n_n_0_1_1409616_wf
def gather_S16x16x4096_S8x1_S8x16x4096_12_0_n_n_0_1_1164096 : GatherDims S16x16x4096 S8x1 S8x16x4096 where
  offsetDims := [1, 2]
  collapsedSliceDims := [0]
  operandBatchingDims := []
  startIndicesBatchingDims := []
  startIndexMap := [0]
  indexVectorDim := 1
  sliceSizes := ![1, 16, 4096]
  wf := gather_S16x16x4096_S8x1_S8x16x4096_12_0_n_n_0_1_1164096_wf
def dot_S8x2048x4096_S8x4096x16_S8x2048x16_2_1_1_2_0_0 : DotDims S8x2048x4096 S8x4096x16 S8x2048x16 where
  lhsContracting := [2]
  rhsContracting := [1]
  lhsNonContracting := [1]
  rhsNonContracting := [2]
  lhsBatch := [0]
  rhsBatch := [0]
  wf := dot_S8x2048x4096_S8x4096x16_S8x2048x16_2_1_1_2_0_0_wf
def dot_S8x2048x16_S8x16x4096_S8x2048x4096_2_1_1_2_0_0 : DotDims S8x2048x16 S8x16x4096 S8x2048x4096 where
  lhsContracting := [2]
  rhsContracting := [1]
  lhsNonContracting := [1]
  rhsNonContracting := [2]
  lhsBatch := [0]
  rhsBatch := [0]
  wf := dot_S8x2048x16_S8x16x4096_S8x2048x4096_2_1_1_2_0_0_wf

class Facts : Prop extends Facts₀ where

variable [Facts]
-- ==== Proof.K.Kit.lean ====
/-
  The launch side of the frame of the low-rank-adapter matmul kernel, written by hand: the program's host
  operations before its one pallas_call (the clipped adapter index table, the casts, the gathered A and the
  rank-16 projection x·A) run first, then the region. Here: the buffers' contents when the region is entered,
  the prefetched table read off them, the pipeline at that table, each window's block at a grid point, the
  schedule of the output window (written back when the reduction axis ends), the three branch conditions of
  the body in closed form over the grid, and the frame claim's post from a frame run.
-/
import proofs.«414927_j48524540510408_3_alg».proof.Proof.Gen.Kernel.Launch
import proofs.«414927_j48524540510408_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main up to the region: the five lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table, read off the region-entry contents -/

/-- The table's contents when the region is entered (one device). -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- The pipeline's side condition of the table: the adapter's block of the B array inside it at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S8 .i32 := Memref.whole main_v0
abbrev htbM0_0 : tbM0_0.IsWhole := Memref.isWhole_whole _

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is the region-entry contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is staged by a window (the windows stage the casts, the
    projection and the result), so each is read back among the bypassing buffers as the region found it. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The output window's schedule and the body as the pipeline calls it -/

/-- The result window is written back exactly where the reduction axis ends (every fourth point), at any contents
    of the table: its index map reads none. -/
theorem flush0_4 (a : (pcfg0 (F := F)).Adm) : ∀ t : Fin (cfg0 a).N, ((cfg0 a).win 4).flush t = true ↔ t.val % 4 = 3 :=
  (by decide +kernel : ∀ t : Fin grid0.N, Pipeline.Window.flushOf grid0 true cc0_transform_4 t = true ↔ t.val % 4 = 3)

/-- The kernel body at point `t`, on what the pipeline calls it with. -/
abbrev bodyAt0 (a : (pcfg0 (F := F)).Adm) (t : Fin (cfg0 a).N) : Prog (TpuEff nD τ sig (Elt F) Λ₀ .tc) PUnit :=
  cc0__lora_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- One staging buffer of the output window, through which its contents are stated. -/
abbrev VO0_4 : View sig .tc .vmem S1x2048x1024 .f32 := (Memref.whole cc0_stg4_0 : Memref sig .tc .vmem S1x2048x1024 .f32).view
abbrev ms0_0 (hO : Ok m) (t : Fin (cfgM m hO).N) : Memref sig .tc .vmem S1x2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x16 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x16x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-! ## The body's three branch conditions over the grid -/

/-- The first step of the reduction axis: the block is written. -/
theorem hcond1 : ∀ t : Fin grid0.N, k0_cond1 (grid0.coords t) = 1#1 ↔ t.val % 4 = 0 := by decide +kernel
/-- A later step: the block is added to. -/
theorem hcond2 : ∀ t : Fin grid0.N, k0_cond2 (grid0.coords t) = 1#1 ↔ ¬ t.val % 4 = 0 := by decide +kernel
/-- The last step: the low-rank term is added. -/
theorem hcond3 : ∀ t : Fin grid0.N, k0_cond3 (grid0.coords t) = 1#1 ↔ t.val % 4 = 3 := by decide +kernel

end Cert.Kernel.Fr

end
-- ==== Proof.K.Runs.lean ====
/-
  The kernel body run symbolically on any whole staging memrefs, once per control case of the reduction axis:
  the first step (the block x·W is stored), a middle step (x·W is added to what the buffer holds), and the last
  step (x·W is added, then the low-rank term (x·A)·B). Each run is a subtype: the pieces the stores leave in the
  output's buffer are the witness the executor finds.
-/
import proofs.«414927_j48524540510408_3_alg».proof.Proof.K.Kit

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First step of the reduction axis: only the first branch is taken. -/
noncomputable def kernelRun0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg8 fullShare d)
            ∗ (iprop(owns (c : Thread nD τ) arg4 fullShare x0 ∗ owns (c : Thread nD τ) arg5 fullShare x1 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%d4, %f4, -, H4⟩, Hk⟩
    obtain rfl := harg4.eq_unread hf0; obtain rfl := harg5.eq_unread hf1
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    iexists _; iexact H4

set_option maxHeartbeats 1000000 in
/-- A middle step: only the second branch is taken; the output's buffer is read at its running contents. -/
noncomputable def kernelRun0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ owns (c : Thread nD τ) arg8 fullShare xo
            ∗ (iprop(owns (c : Thread nD τ) arg4 fullShare x0 ∗ owns (c : Thread nD τ) arg5 fullShare x1 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f4, %hf4, H4⟩, Hk⟩
    obtain rfl := harg4.eq_unread hf0; obtain rfl := harg5.eq_unread hf1; obtain rfl := harg8.eq_unread hf4
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    iexists _; iexact H4

set_option maxHeartbeats 1000000 in
/-- The last step: the second and the third branch are taken; the low-rank operands are read too. -/
noncomputable def kernelRun0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.Kernel.Fr

end
-- ==== Proof.K.Frame.lean ====
/-
  The frame of the low-rank-adapter matmul kernel: what the output's staging buffer holds after each grid point
  — the running sum over the reduction axis: reset where the axis starts, added to at every later step, the
  low-rank term joined at the last —, the pipeline's proof data, the body obligation case by case, the launch,
  and the frame claim: the program terminates without a fault and leaves its arguments as they were.
-/
import proofs.«414927_j48524540510408_3_alg».proof.Proof.K.Runs

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

theorem cover0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) (y : S1x2048x1024.Idx) :
    ∃ pc ∈ (kernelRun0_A c i arg4 harg4 arg5 harg5 arg6 harg6 arg7 harg7 arg8 harg8 hc1 hc2 hc3 x0 x1).1, y ∈ pc.1.set :=
  View.cover_of_wholeMem (kernelRun0_A c i arg4 harg4 arg5 harg5 arg6 harg6 arg7 harg7 arg8 harg8 hc1 hc2 hc3 x0 x1).1 (by sl_whole_mem) y

def out0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) : Vec F S1x2048x1024 .f32 :=
  VO0_4.read (Elt F) (VO0_4.writes (Elt F) VO0_4.junk (kernelRun0_A c i arg4 harg4 arg5 harg5 arg6 harg6 arg7 harg7 arg8 harg8 hc1 hc2 hc3 x0 x1).1)

theorem cover0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) (y : S1x2048x1024.Idx) :
    ∃ pc ∈ (kernelRun0_B c i arg4 harg4 arg5 harg5 arg6 harg6 arg7 harg7 arg8 harg8 hc1 hc2 hc3 x0 x1 xo).1, y ∈ pc.1.set :=
  View.cover_of_wholeMem (kernelRun0_B c i arg4 harg4 arg5 harg5 arg6 harg6 arg7 harg7 arg8 harg8 hc1 hc2 hc3 x0 x1 xo).1 (by sl_whole_mem) y

def out0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) : Vec F S1x2048x1024 .f32 :=
  VO0_4.read (Elt F) (VO0_4.writes (Elt F) VO0_4.junk (kernelRun0_B c i arg4 harg4 arg5 harg5 arg6 harg6 arg7 harg7 arg8 harg8 hc1 hc2 hc3 x0 x1 xo).1)

theorem cover0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) (y : S1x2048x1024.Idx) :
    ∃ pc ∈ (kernelRun0_C c i arg4 harg4 arg5 harg5 arg6 harg6 arg7 harg7 arg8 harg8 hc1 hc2 hc3 x0 x1 x2 x3 xo).1, y ∈ pc.1.set :=
  View.cover_of_wholeMem (kernelRun0_C c i arg4 harg4 arg5 harg5 arg6 harg6 arg7 harg7 arg8 harg8 hc1 hc2 hc3 x0 x1 x2 x3 xo).1 (by sl_whole_mem) y

def out0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) : Vec F S1x2048x1024 .f32 :=
  VO0_4.read (Elt F) (VO0_4.writes (Elt F) VO0_4.junk (kernelRun0_C c i arg4 harg4 arg5 harg5 arg6 harg6 arg7 harg7 arg8 harg8 hc1 hc2 hc3 x0 x1 x2 x3 xo).1)

/-! ## The case of a point, from its position on the reduction axis -/

theorem caseA (t : Fin grid0.N) (h0 : t.val % 4 = 0) :
    k0_cond1 (grid0.coords t) = 1#1 ∧ ¬ k0_cond2 (grid0.coords t) = 1#1 ∧ ¬ k0_cond3 (grid0.coords t) = 1#1 :=
  ⟨(hcond1 t).mpr h0, fun h => (hcond2 t).mp h h0, fun h => by have := (hcond3 t).mp h; omega⟩
theorem caseB (t : Fin grid0.N) (h0 : ¬ t.val % 4 = 0) (h3 : ¬ t.val % 4 = 3) :
    ¬ k0_cond1 (grid0.coords t) = 1#1 ∧ k0_cond2 (grid0.coords t) = 1#1 ∧ ¬ k0_cond3 (grid0.coords t) = 1#1 :=
  ⟨fun h => h0 ((hcond1 t).mp h), (hcond2 t).mpr h0, fun h => h3 ((hcond3 t).mp h)⟩
theorem caseC (t : Fin grid0.N) (h3 : t.val % 4 = 3) :
    ¬ k0_cond1 (grid0.coords t) = 1#1 ∧ k0_cond2 (grid0.coords t) = 1#1 ∧ k0_cond3 (grid0.coords t) = 1#1 :=
  ⟨fun h => by have := (hcond1 t).mp h; omega, (hcond2 t).mpr (by omega), (hcond3 t).mpr h3⟩

/-! ## What the output holds after each point -/

/-- The input blocks at a point, at their literal types. -/
abbrev xb0 (hO : Ok m) (c : Dev nD) (t : Fin (cfgM m hO).N) : Vec F S1x2048x1024 .bf16 := iblk m hO c 0 t
abbrev xb1 (hO : Ok m) (c : Dev nD) (t : Fin (cfgM m hO).N) : Vec F S1024x1024 .bf16 := iblk m hO c 1 t
abbrev xb2 (hO : Ok m) (c : Dev nD) (t : Fin (cfgM m hO).N) : Vec F S1x2048x16 .bf16 := iblk m hO c 2 t
abbrev xb3 (hO : Ok m) (c : Dev nD) (t : Fin (cfgM m hO).N) : Vec F S1x16x1024 .bf16 := iblk m hO c 3 t

/-- One step of the accumulation: what the body leaves in the output's buffer at point `t`, over what the buffer
    held (`prev`: read only past the first step of the reduction axis). -/
def outAt (hO : Ok m) (c : Dev nD) (t : Fin (cfgM m hO).N) (prev : Vec F S1x2048x1024 .f32) : Vec F S1x2048x1024 .f32 :=
  if h0 : t.val % 4 = 0 then
    out0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseA t h0).1 (caseA t h0).2.1 (caseA t h0).2.2 (xb0 m hO c t) (xb1 m hO c t)
  else if h3 : t.val % 4 = 3 then
    out0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseC t h3).1 (caseC t h3).2.1 (caseC t h3).2.2 (xb0 m hO c t) (xb1 m hO c t) (xb2 m hO c t) (xb3 m hO c t) prev
  else
    out0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseB t h0 h3).1 (caseB t h0 h3).2.1 (caseB t h0 h3).2.2 (xb0 m hO c t) (xb1 m hO c t) prev

/-- The accumulation over the grid: each point's step over what the point before left. -/
def outsAt0 (hO : Ok m) (c : Dev nD) : (n : ℕ) → n < (cfgM m hO).N → Vec F S1x2048x1024 .f32
  | 0, hn => outAt m hO c ⟨0, hn⟩ (VO0_4.read (Elt F) VO0_4.junk)
  | n + 1, hn => outAt m hO c ⟨n + 1, hn⟩ (outsAt0 hO c n (Nat.lt_of_succ_lt hn))

theorem outsAt0_A (hO : Ok m) (c : Dev nD) (t : Fin (cfgM m hO).N) (h0 : t.val % 4 = 0) :
    outsAt0 m hO c t.val t.isLt = out0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseA t h0).1 (caseA t h0).2.1 (caseA t h0).2.2 (xb0 m hO c t) (xb1 m hO c t) := by
  obtain ⟨n, hn⟩ := t
  cases n with
  | zero => rw [outsAt0]; unfold outAt; rw [dif_pos h0]
  | succ n => rw [outsAt0]; unfold outAt; rw [dif_pos h0]

theorem outsAt0_B (hO : Ok m) (c : Dev nD) (t : Fin (cfgM m hO).N) (h0 : ¬ t.val % 4 = 0) (h3 : ¬ t.val % 4 = 3)
    (p : ℕ) (hp : p < (cfgM m hO).N) (hpt : p + 1 = t.val) :
    outsAt0 m hO c t.val t.isLt = out0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseB t h0 h3).1 (caseB t h0 h3).2.1 (caseB t h0 h3).2.2 (xb0 m hO c t) (xb1 m hO c t) (outsAt0 m hO c p hp) := by
  obtain ⟨n, hn⟩ := t
  cases n with
  | zero => exact absurd (Nat.zero_mod 4) h0
  | succ n =>
    obtain rfl : p = n := Nat.succ.inj hpt
    rw [outsAt0]; unfold outAt; rw [dif_neg h0, dif_neg h3]

theorem outsAt0_C (hO : Ok m) (c : Dev nD) (t : Fin (cfgM m hO).N) (h3 : t.val % 4 = 3)
    (p : ℕ) (hp : p < (cfgM m hO).N) (hpt : p + 1 = t.val) :
    outsAt0 m hO c t.val t.isLt = out0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseC t h3).1 (caseC t h3).2.1 (caseC t h3).2.2 (xb0 m hO c t) (xb1 m hO c t) (xb2 m hO c t) (xb3 m hO c t) (outsAt0 m hO c p hp) := by
  have h0 : ¬ t.val % 4 = 0 := by omega
  obtain ⟨n, hn⟩ := t
  cases n with
  | zero => exact absurd (Nat.zero_mod 4) h0
  | succ n =>
    obtain rfl : p = n := Nat.succ.inj hpt
    rw [outsAt0]; unfold outAt; rw [dif_neg h0, dif_pos h3]

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The output window is never idle: at every point the first or the second branch stores into it. -/
theorem live0_4 : ∀ i : grid0.Coords, idle0 4 i = false := by decide +kernel

/-- Past the first step of the reduction axis the output's buffer holds what the step before left: it is not
    written back between. -/
theorem before0_4_acc (hO : Ok m) (c : Dev nD) (t : Fin (cfgM m hO).N) (h0 : ¬ t.val % 4 = 0) (d) :
    (dats m hO 0 c).before 4 t d = (outsAt0 m hO c (t.val - 1) (Nat.lt_of_le_of_lt (Nat.sub_le _ _) t.isLt)) := by
  rw [Dat.before_out_kept _ 4 rfl t (by omega) (Bool.eq_false_iff.mpr fun h => by have := (flush0_4 _ _).mp h; dsimp only at this; omega)
    (by intro i; exact live0_4 i) (fun _ _ => rfl)]
  exact after0_4 m hO c _

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  by_cases h0 : t.val % 4 = 0
  · rw [outsAt0_A m hO c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ (caseA t h0).1 (caseA t h0).2.1 (caseA t h0).2.2 (xb0 m hO c t) (xb1 m hO c t)).2 Set.univ _)
    isplitl [H0]; · iexact H0
    isplitl [H1]; · iexact H1
    isplitl [H4]; · iexists _; iexact H4
    iintro ⟨H0, H1, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · simp only [before0_4_acc m hO c t h0]
    by_cases h3 : t.val % 4 = 3
    · rw [outsAt0_C m hO c t h3 (t.val - 1) (Nat.lt_of_le_of_lt (Nat.sub_le _ _) t.isLt) (by omega)]
      unfold out0_C
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (caseC t h3).1 (caseC t h3).2.1 (caseC t h3).2.2 (xb0 m hO c t) (xb1 m hO c t) (xb2 m hO c t) (xb3 m hO c t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _)
    · rw [outsAt0_B m hO c t h0 h3 (t.val - 1) (Nat.lt_of_le_of_lt (Nat.sub_le _ _) t.isLt) (by omega)]
      unfold out0_B
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (caseB t h0 h3).1 (caseB t h0 h3).2.1 (caseB t h0 h3).2.2 (xb0 m hO c t) (xb1 m hO c t) _).2 Set.univ _)
      isplitl [H0]; · iexact H0
      isplitl [H1]; · iexact H1
      isplitl [H4]; · iexact H4
      iintro ⟨H0, H1, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B c _ _ _ _ _ _ _ _ _ _ _ _ _ _ _ _ _)

theorem body_obligation (hO : Ok m) (c : Dev nD) : BodyObligation (dats (F := F) m hO 0 c) (defs₀ (F := F)) Variants.none () Set.univ := fun t => by
  rw [bigSep_W0, bigSep_W0]
  have hl : (cfgM m hO).idle (4 : Fin 5) ((cfgM m hO).grid.coords t) = false := live0_4 _
  rw [hl]
  exact sound_body m hO c t

/-! ## The run and the frame -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

end Cert.Kernel.Fr

end
-- ==== Proof.K.Table.lean ====
/-
  The prefetched table is the adapter index clipped to [0, 15] by the program itself, so the block of the B array
  it selects lies inside the array whatever the indices are: the pipeline's side condition holds of every memory.
-/
import proofs.«414927_j48524540510408_3_alg».proof.Proof.K.Kit

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The clipped index word: min 15 (max 0 w), signed. -/
def clipw (w : BitVec 32) : BitVec 32 := IntOp.minsi 15#32 (IntOp.maxsi 0#32 w)

/-- A clipped word is an index below 16. -/
theorem clipw_lt (w : BitVec 32) : (clipw w).toNat < 16 := by
  unfold clipw IntOp.minsi IntOp.maxsi
  have h32 := w.isLt
  by_cases h1 : w.slt 0#32
  · rw [if_pos h1]
    have : ¬ (15#32).slt 0#32 := by decide
    rw [if_neg this]; decide
  · rw [if_neg h1]
    by_cases h2 : (15#32).slt w
    · rw [if_pos h2]; decide
    · rw [if_neg h2]
      simp only [BitVec.slt, decide_eq_true_eq, BitVec.toInt] at h1 h2
      split at h1 <;> simp at h1 h2 <;> omega

/-- A clipped word read signed is its unsigned value, below 16. -/
theorem clipw_toInt (w : BitVec 32) : (clipw w).toInt = ((clipw w).toNat : Int) := by
  have h := clipw_lt w
  unfold BitVec.toInt
  rw [if_pos (by omega)]

theorem clipw_toInt_toNat (w : BitVec 32) : (clipw w).toInt.toNat = (clipw w).toNat := by
  rw [clipw_toInt]; rfl

/-- A clipped word is not negative … -/
theorem clipw_not_neg (w : BitVec 32) : (clipw w).slt 0#32 = false := by
  have h := clipw_lt w
  simp only [BitVec.slt, clipw_toInt, decide_eq_false_iff_not]
  have : (0#32 : BitVec 32).toInt = 0 := by decide
  rw [this]; omega

/-- … is at least 0 … -/
theorem clipw_ge0 (w : BitVec 32) : (0#32 : BitVec 32).sle (clipw w) = true := by
  simp only [BitVec.sle, clipw_toInt, decide_eq_true_eq]
  have : (0#32 : BitVec 32).toInt = 0 := by decide
  rw [this]; omega

/-- … and at most 15. -/
theorem clipw_le15 (w : BitVec 32) : (clipw w).sle 15#32 = true := by
  have h := clipw_lt w
  simp only [BitVec.sle, clipw_toInt, decide_eq_true_eq]
  have : (15#32 : BitVec 32).toInt = 15 := by decide
  rw [this]; omega

/-- The wrap of a negative index (add 16 when below 0) leaves a clipped word as it is. -/
theorem wrap_clipw (w : BitVec 32) :
    Scalar.select (IntOp.cmpi .slt (clipw w) 0#32) (IntOp.addi (clipw w) 16#32) (clipw w) = clipw w := by
  unfold IntOp.cmpi
  simp only [clipw_not_neg]
  rfl

/-- The range test of a take (at least 0 and at most 15) passes at a clipped word. -/
theorem inrange_clipw (w : BitVec 32) :
    IntOp.andi (IntOp.cmpi .sge (clipw w) 0#32) (IntOp.cmpi .sle (clipw w) 15#32) = 1#1 := by
  unfold IntOp.cmpi
  simp only [clipw_ge0, clipw_le15]
  rfl

/-- A word already in [0, 16) is its own clip. -/
theorem clipw_of_range (w : BitVec 32) (h0 : ¬ w.slt 0#32) (h16 : w.slt 16#32) : clipw w = w := by
  unfold clipw IntOp.minsi IntOp.maxsi
  rw [if_neg h0]
  have : ¬ (15#32).slt w := by
    simp only [BitVec.slt, decide_eq_true_eq, BitVec.toInt] at h0 h16 ⊢
    have h32 := w.isLt
    split at h16 <;> simp at h0 h16 ⊢ <;> omega
  rw [if_neg this]

/-- The table's contents: the clip of the index argument, word by word. -/
theorem tbl_eq : (tbl m 0 : IVec S8 32) = fun i => clipw ((m (((0 : Dev nD) : Thread nD τ).loc main_arg1) : IVec S8 32) i) := by
  unfold tbl
  show V m 0 main_v0 = _
  dsimp only [V]
  simp only [hostOps0, hostOps0_1, hostOps0_2, hostOps0_3, hostOps0_4, List.flatten_cons, List.flatten_nil, List.append_nil, List.cons_append,
    List.nil_append]
  after_results
  rfl

/-- The pipeline's side condition of the table holds of every memory. -/
theorem ok_all : Ok m := by
  intro i
  have hl : ∀ x, ((tbl m 0 : IVec S8 32) x).toNat < 16 := fun x => by rw [tbl_eq]; exact clipw_lt _
  obtain ⟨w, hw, e⟩ : ∃ w : BitVec 32, w.toNat < 16 ∧ cc0_transform_3 k0_off1_inb numel1_S1 (tbl m) i = ![w.toNat, (0#32).toNat, (BitVec.ofNat 32 (i 1).val).toNat] :=
    ⟨_, hl _, rfl⟩
  have hi1 : (i 1).val < 4 := (i 1).isLt
  refine ⟨fun a => ?_, Or.inr (Affine.block_words_dvd (of_decide_eq_true rfl) (by decide))⟩
  rw [e]
  fin_cases a <;> simp [S1x16x1024, S16x16x4096] <;> omega

end Cert.Kernel.Fr

end
-- ==== Proof.KI.Kit.lean ====
/-
  The launch side of the frame of the low-rank-adapter matmul kernel, written by hand: the program's host
  operations before its one pallas_call (the clipped adapter index table, the casts, the gathered A and the
  rank-16 projection x·A) run first, then the region. Here: the buffers' contents when the region is entered,
  the prefetched table read off them, the pipeline at that table, each window's block at a grid point, the
  schedule of the output window (written back when the reduction axis ends), the three branch conditions of
  the body in closed form over the grid, and the frame claim's post from a frame run.
-/
import proofs.«414927_j48524540510408_3_alg».proof.Proof.Gen.KernelIdeal.Launch
import proofs.«414927_j48524540510408_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main up to the region: the five lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table, read off the region-entry contents -/

/-- The table's contents when the region is entered (one device). -/
def tbl : pre0.Contents (Elt F) := fun j => V m (0 : Dev nD) (pre0.ref j)
/-- On every device the table holds those contents (there is one device). -/
theorem V_pre (c : Dev nD) (j : Fin 1) : V m c (pre0.ref j) = tbl m j := by
  obtain rfl : c = 0 := Subsingleton.elim _ _; rfl
/-- The pipeline's side condition of the table: the adapter's block of the B array inside it at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S8 .i32 := Memref.whole main_v0
abbrev htbM0_0 : tbM0_0.IsWhole := Memref.isWhole_whole _

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for any proof
    data whose array is the region-entry contents and whose body leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is staged by a window (the windows stage the casts, the
    projection and the result), so each is read back among the bypassing buffers as the region found it. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The output window's schedule and the body as the pipeline calls it -/

/-- The result window is written back exactly where the reduction axis ends (every fourth point), at any contents
    of the table: its index map reads none. -/
theorem flush0_4 (a : (pcfg0 (F := F)).Adm) : ∀ t : Fin (cfg0 a).N, ((cfg0 a).win 4).flush t = true ↔ t.val % 4 = 3 :=
  (by decide +kernel : ∀ t : Fin grid0.N, Pipeline.Window.flushOf grid0 true cc0_transform_4 t = true ↔ t.val % 4 = 3)

/-- The kernel body at point `t`, on what the pipeline calls it with. -/
abbrev bodyAt0 (a : (pcfg0 (F := F)).Adm) (t : Fin (cfg0 a).N) : Prog (TpuEff nD τ sig (Elt F) Λ₀ .tc) PUnit :=
  cc0__lora_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- One staging buffer of the output window, through which its contents are stated. -/
abbrev VO0_4 : View sig .tc .vmem S1x2048x1024 .f32 := (Memref.whole cc0_stg4_0 : Memref sig .tc .vmem S1x2048x1024 .f32).view
abbrev ms0_0 (hO : Ok m) (t : Fin (cfgM m hO).N) : Memref sig .tc .vmem S1x2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x16 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x16x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2048x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-! ## The body's three branch conditions over the grid -/

/-- The first step of the reduction axis: the block is written. -/
theorem hcond1 : ∀ t : Fin grid0.N, k0_cond1 (grid0.coords t) = 1#1 ↔ t.val % 4 = 0 := by decide +kernel
/-- A later step: the block is added to. -/
theorem hcond2 : ∀ t : Fin grid0.N, k0_cond2 (grid0.coords t) = 1#1 ↔ ¬ t.val % 4 = 0 := by decide +kernel
/-- The last step: the low-rank term is added. -/
theorem hcond3 : ∀ t : Fin grid0.N, k0_cond3 (grid0.coords t) = 1#1 ↔ t.val % 4 = 3 := by decide +kernel

end Cert.KernelIdeal.Fr

end
-- ==== Proof.KI.Table.lean ====
/-
  The prefetched table is the adapter index clipped to [0, 15] by the program itself, so the block of the B array
  it selects lies inside the array whatever the indices are: the pipeline's side condition holds of every memory.
-/
import proofs.«414927_j48524540510408_3_alg».proof.Proof.KI.Kit

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The clipped index word: min 15 (max 0 w), signed. -/
def clipw (w : BitVec 32) : BitVec 32 := IntOp.minsi 15#32 (IntOp.maxsi 0#32 w)

/-- A clipped word is an index below 16. -/
theorem clipw_lt (w : BitVec 32) : (clipw w).toNat < 16 := by
  unfold clipw IntOp.minsi IntOp.maxsi
  have h32 := w.isLt
  by_cases h1 : w.slt 0#32
  · rw [if_pos h1]
    have : ¬ (15#32).slt 0#32 := by decide
    rw [if_neg this]; decide
  · rw [if_neg h1]
    by_cases h2 : (15#32).slt w
    · rw [if_pos h2]; decide
    · rw [if_neg h2]
      simp only [BitVec.slt, decide_eq_true_eq, BitVec.toInt] at h1 h2
      split at h1 <;> simp at h1 h2 <;> omega

/-- A clipped word read signed is its unsigned value, below 16. -/
theorem clipw_toInt (w : BitVec 32) : (clipw w).toInt = ((clipw w).toNat : Int) := by
  have h := clipw_lt w
  unfold BitVec.toInt
  rw [if_pos (by omega)]

theorem clipw_toInt_toNat (w : BitVec 32) : (clipw w).toInt.toNat = (clipw w).toNat := by
  rw [clipw_toInt]; rfl

/-- A clipped word is not negative … -/
theorem clipw_not_neg (w : BitVec 32) : (clipw w).slt 0#32 = false := by
  have h := clipw_lt w
  simp only [BitVec.slt, clipw_toInt, decide_eq_false_iff_not]
  have : (0#32 : BitVec 32).toInt = 0 := by decide
  rw [this]; omega

/-- … is at least 0 … -/
theorem clipw_ge0 (w : BitVec 32) : (0#32 : BitVec 32).sle (clipw w) = true := by
  simp only [BitVec.sle, clipw_toInt, decide_eq_true_eq]
  have : (0#32 : BitVec 32).toInt = 0 := by decide
  rw [this]; omega

/-- … and at most 15. -/
theorem clipw_le15 (w : BitVec 32) : (clipw w).sle 15#32 = true := by
  have h := clipw_lt w
  simp only [BitVec.sle, clipw_toInt, decide_eq_true_eq]
  have : (15#32 : BitVec 32).toInt = 15 := by decide
  rw [this]; omega

/-- The wrap of a negative index (add 16 when below 0) leaves a clipped word as it is. -/
theorem wrap_clipw (w : BitVec 32) :
    Scalar.select (IntOp.cmpi .slt (clipw w) 0#32) (IntOp.addi (clipw w) 16#32) (clipw w) = clipw w := by
  unfold IntOp.cmpi
  simp only [clipw_not_neg]
  rfl

/-- The range test of a take (at least 0 and at most 15) passes at a clipped word. -/
theorem inrange_clipw (w : BitVec 32) :
    IntOp.andi (IntOp.cmpi .sge (clipw w) 0#32) (IntOp.cmpi .sle (clipw w) 15#32) = 1#1 := by
  unfold IntOp.cmpi
  simp only [clipw_ge0, clipw_le15]
  rfl

/-- A word already in [0, 16) is its own clip. -/
theorem clipw_of_range (w : BitVec 32) (h0 : ¬ w.slt 0#32) (h16 : w.slt 16#32) : clipw w = w := by
  unfold clipw IntOp.minsi IntOp.maxsi
  rw [if_neg h0]
  have : ¬ (15#32).slt w := by
    simp only [BitVec.slt, decide_eq_true_eq, BitVec.toInt] at h0 h16 ⊢
    have h32 := w.isLt
    split at h16 <;> simp at h0 h16 ⊢ <;> omega
  rw [if_neg this]

/-- The table's contents: the clip of the index argument, word by word. -/
theorem tbl_eq : (tbl m 0 : IVec S8 32) = fun i => clipw ((m (((0 : Dev nD) : Thread nD τ).loc main_arg1) : IVec S8 32) i) := by
  unfold tbl
  show V m 0 main_v0 = _
  dsimp only [V]
  simp only [hostOps0, hostOps0_1, hostOps0_2, hostOps0_3, hostOps0_4, List.flatten_cons, List.flatten_nil, List.append_nil, List.cons_append,
    List.nil_append]
  after_results
  rfl

/-- The pipeline's side condition of the table holds of every memory. -/
theorem ok_all : Ok m := by
  intro i
  have hl : ∀ x, ((tbl m 0 : IVec S8 32) x).toNat < 16 := fun x => by rw [tbl_eq]; exact clipw_lt _
  obtain ⟨w, hw, e⟩ : ∃ w : BitVec 32, w.toNat < 16 ∧ cc0_transform_3 k0_off1_inb numel1_S1 (tbl m) i = ![w.toNat, (0#32).toNat, (BitVec.ofNat 32 (i 1).val).toNat] :=
    ⟨_, hl _, rfl⟩
  have hi1 : (i 1).val < 4 := (i 1).isLt
  refine ⟨fun a => ?_, Or.inr (Affine.block_words_dvd (of_decide_eq_true rfl) (by decide))⟩
  rw [e]
  fin_cases a <;> simp [S1x16x1024, S16x16x4096] <;> omega

end Cert.KernelIdeal.Fr

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KI.Pay.lean ====
/-
  The three payloads of the kernel body over the extended reals, read at an entry (0, s, j) of the output block:
  the product block's entry is the sum over the block's 1024 contraction positions of x (s, k) · W (k, j); a later
  step adds that sum to the entry the buffer held; the last step adds (the sum over the 16 ranks of
  xr (s, r) · B (r, j)) times the scaling constant.
-/
import proofs.«414927_j48524540510408_3_alg».proof.Proof.Gen.KernelIdeal.Skeleton
import proofs.«414927_j48524540510408_3_alg».proof.Proof.LibDotSum
import Idealize.ShloMosaic.Lib.ValueLayout
import Idealize.ShloMosaic.Lib.Pipeline.Value

set_option maxRecDepth 16384

noncomputable section

namespace Cert.KernelIdeal.Val

open Cert.KernelIdeal Cert.KernelIdeal.Gen Cert.Lib
open Idealize.ShloMosaic Idealize.ShloMosaic.TcCoe Idealize.ShloMosaic.ValueIdx Idealize.SL.Sem
open Idealize.ShloMosaic.Pipeline (Dat)

/-- The scaling constant the body multiplies the low-rank term by (the word of 1.0). -/
abbrev scal : Ideal .f32 := Scalar.ofBits .f32 0x3F800000#32

theorem pay1_apply (x0 : FVec Ideal S1x2048x1024 .bf16) (x1 : FVec Ideal S1024x1024 .bf16) (s : Fin 2048) (j : Fin 1024) :
    k0_pay1 (F := Ideal) x0 x1 (ix3 (0 : Fin 1) s j) = ∑ k : Fin 1024, x0 (ix3 (0 : Fin 1) s k) * x1 (ix2 k j) := by
  unfold k0_pay1
  rw [shapeCast_ab_1ab_apply, matmul_rc_apply _ rfl rfl rfl rfl rfl rfl]
  simp only [shapeCast_1ab_ab_apply, shapeCast_self]

theorem pay2_apply (xo : FVec Ideal S1x2048x1024 .f32) (x0 : FVec Ideal S1x2048x1024 .bf16) (x1 : FVec Ideal S1024x1024 .bf16) (s : Fin 2048) (j : Fin 1024) :
    k0_pay2 (F := Ideal) xo x0 x1 (ix3 (0 : Fin 1) s j)
      = xo (ix3 (0 : Fin 1) s j) + ∑ k : Fin 1024, x0 (ix3 (0 : Fin 1) s k) * x1 (ix2 k j) := by
  unfold k0_pay2
  rw [shapeCast_ab_1ab_apply, addf_apply, matmul_rc_apply _ rfl rfl rfl rfl rfl rfl]
  simp only [shapeCast_1ab_ab_apply, shapeCast_self]

theorem pay3_apply (x2 : FVec Ideal S1x2048x16 .bf16) (x3 : FVec Ideal S1x16x1024 .bf16) (xo : FVec Ideal S1x2048x1024 .f32) (s : Fin 2048) (j : Fin 1024) :
    k0_pay3 (F := Ideal) x2 x3 xo (ix3 (0 : Fin 1) s j)
      = xo (ix3 (0 : Fin 1) s j) + (∑ r : Fin 16, x2 (ix3 (0 : Fin 1) s r) * x3 (ix3 (0 : Fin 1) r j)) * scal := by
  unfold k0_pay3
  rw [shapeCast_ab_1ab_apply, addf_apply, mulf_apply, broadcast_apply, matmul_rc_apply _ rfl rfl rfl rfl rfl rfl]
  simp only [shapeCast_1ab_ab_apply]

end Cert.KernelIdeal.Val

end
-- ==== Proof.LibBatchDot.lean ====
/-
  General lemmas over the extended reals and the shape operations, used on both sides of the bridge.

  * A BATCHED matrix product [B, M, K] × [B, K, N] → [B, M, N] (batch axis 0 of both, the left's axis 2 contracted
    against the right's axis 1), read at an output index (b, r, c): the sum over k of L (b, r, k) · R (b, k, c).
    Stated for any extents and any dimension-numbers record with those axis lists.
  * A sum over 4·n terms as the four consecutive blocks of n terms, in order.
-/
import Idealize.ShloMosaic.PureOps.Ideal.Laws
import Idealize.ShloMosaic.Lib.ValueIdx
import Mathlib.Algebra.BigOperators.Fin
import Mathlib.Logic.Equiv.Fin.Basic

noncomputable section

namespace Cert.Lib

open Idealize.ShloMosaic Idealize.ShloMosaic.ValueIdx

variable {B M K N : Nat}

/-! ## The batched product -/

/-- The dimension numbers of a [B, M, K] × [B, K, N] batched product. -/
def bmm (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], wf⟩

variable (wf : DotDims.WF ⟨3, ![B, M, K]⟩ ⟨3, ![B, K, N]⟩ ⟨3, ![B, M, N]⟩ [2] [1] [1] [2] [0] [0])

theorem bmm_lhs_0 (i : (⟨3, ![B, M, N]⟩ : Shape).Idx) (q : (bmm wf).contr.Idx) : ((bmm wf).lhsIdx i q 0).val = (i 0).val := by
  unfold DotDims.lhsIdx
  rw [dif_pos (show (0 : Fin (⟨3, ![B, M, K]⟩ : Shape).rank) ∈ (bmm wf).lhsBatch by simp [bmm])]
  rfl
theorem bmm_lhs_1 (i : (⟨3, ![B, M, N]⟩ : Shape).Idx) (q : (bmm wf).contr.Idx) : ((bmm wf).lhsIdx i q 1).val = (i 1).val := by
  unfold DotDims.lhsIdx
  rw [dif_neg (show ¬(1 : Fin (⟨3, ![B, M, K]⟩ : Shape).rank) ∈ (bmm wf).lhsBatch by simp [bmm]),
    dif_pos (show (1 : Fin (⟨3, ![B, M, K]⟩ : Shape).rank) ∈ (bmm wf).lhsNonContracting by simp [bmm])]
  rfl
theorem bmm_lhs_2 (i : (⟨3, ![B, M, N]⟩ : Shape).Idx) (q : (bmm wf).contr.Idx) :
    ((bmm wf).lhsIdx i q 2).val = (q ⟨0, Nat.one_pos⟩).val :=
  (bmm wf).lhsIdx_val_of_single rfl i q
theorem bmm_rhs_0 (i : (⟨3, ![B, M, N]⟩ : Shape).Idx) (q : (bmm wf).contr.Idx) : ((bmm wf).rhsIdx i q 0).val = (i 0).val := by
  unfold DotDims.rhsIdx
  rw [dif_pos (show (0 : Fin (⟨3, ![B, K, N]⟩ : Shape).rank) ∈ (bmm wf).rhsBatch by simp [bmm])]
  rfl
theorem bmm_rhs_1 (i : (⟨3, ![B, M, N]⟩ : Shape).Idx) (q : (bmm wf).contr.Idx) :
    ((bmm wf).rhsIdx i q 1).val = (q ⟨0, Nat.one_pos⟩).val :=
  (bmm wf).rhsIdx_val_of_single rfl i q
theorem bmm_rhs_2 (i : (⟨3, ![B, M, N]⟩ : Shape).Idx) (q : (bmm wf).contr.Idx) : ((bmm wf).rhsIdx i q 2).val = (i 2).val := by
  unfold DotDims.rhsIdx
  rw [dif_neg (show ¬(2 : Fin (⟨3, ![B, K, N]⟩ : Shape).rank) ∈ (bmm wf).rhsBatch by simp [bmm]),
    dif_pos (show (2 : Fin (⟨3, ![B, K, N]⟩ : Shape).rank) ∈ (bmm wf).rhsNonContracting by simp [bmm])]
  rfl

/-- The contraction sum of the batched product at (b, r, c) runs over the pairs (b, r, k), (b, k, c). -/
theorem sum_bmm {β : Type} [AddCommMonoid β] (f : (⟨3, ![B, M, K]⟩ : Shape).Idx → (⟨3, ![B, K, N]⟩ : Shape).Idx → β)
    (b : Fin B) (r : Fin M) (c : Fin N) :
    ∑ k : (bmm wf).contr.Idx, f ((bmm wf).lhsIdx (ix3 b r c) k) ((bmm wf).rhsIdx (ix3 b r c) k)
      = ∑ k : Fin K, f (ix3 b r k) (ix3 b k c) := by
  rw [← Equiv.sum_comp (contrEquiv1 (bmm wf) K rfl rfl).symm]
  refine Finset.sum_congr rfl fun k _ => ?_
  have hk := contrEquiv1_symm_val (bmm wf) K rfl rfl k
  have el : (bmm wf).lhsIdx (ix3 b r c) ((contrEquiv1 (bmm wf) K rfl rfl).symm k) = ix3 b r k := funext fun a => Fin.ext (by
    match a with
    | ⟨0, _⟩ => exact bmm_lhs_0 wf _ _
    | ⟨1, _⟩ => exact bmm_lhs_1 wf _ _
    | ⟨2, _⟩ => exact (bmm_lhs_2 wf _ _).trans hk)
  have er : (bmm wf).rhsIdx (ix3 b r c) ((contrEquiv1 (bmm wf) K rfl rfl).symm k) = ix3 b k c := funext fun a => Fin.ext (by
    match a with
    | ⟨0, _⟩ => exact bmm_rhs_0 wf _ _
    | ⟨1, _⟩ => exact (bmm_rhs_1 wf _ _).trans hk
    | ⟨2, _⟩ => exact bmm_rhs_2 wf _ _)
  rw [el, er]

/-- The same for any record with those axis lists. -/
theorem sum_contr_bmm {β : Type} [AddCommMonoid β] (d : DotDims ⟨3, ![B, M, K]⟩ ⟨3, ![B, K, N]⟩ ⟨3, ![B, M, N]⟩)
    (hlc : d.lhsContracting = [2]) (hrc : d.rhsContracting = [1])
    (hln : d.lhsNonContracting = [1]) (hrn : d.rhsNonContracting = [2])
    (hlb : d.lhsBatch = [0]) (hrb : d.rhsBatch = [0])
    (f : (⟨3, ![B, M, K]⟩ : Shape).Idx → (⟨3, ![B, K, N]⟩ : Shape).Idx → β) (b : Fin B) (r : Fin M) (c : Fin N) :
    ∑ k : d.contr.Idx, f (d.lhsIdx (ix3 b r c) k) (d.rhsIdx (ix3 b r c) k) = ∑ k : Fin K, f (ix3 b r k) (ix3 b k c) := by
  obtain ⟨lc, rc', ln, rn, lb, rb, wf'⟩ := d
  simp only at hlc hrc hln hrn hlb hrb
  subst hlc hrc hln hrn hlb hrb
  exact sum_bmm wf' f b r c

/-- The host's batched product at (b, r, c): the sum over k of L (b, r, k) · R (b, k, c). -/
theorem dotGeneral_bmm_apply {φ₁ φ₂ φ₃ : FTy} (d : DotDims ⟨3, ![B, M, K]⟩ ⟨3, ![B, K, N]⟩ ⟨3, ![B, M, N]⟩)
    (hlc : d.lhsContracting = [2]) (hrc : d.rhsContracting = [1])
    (hln : d.lhsNonContracting = [1]) (hrn : d.rhsNonContracting = [2])
    (hlb : d.lhsBatch = [0]) (hrb : d.rhsBatch = [0]) (prec : Option ContractPrecision)
    (L : FVec Ideal ⟨3, ![B, M, K]⟩ φ₁) (R : FVec Ideal ⟨3, ![B, K, N]⟩ φ₂) (b : Fin B) (r : Fin M) (c : Fin N) :
    (Host.dotGeneral d prec L R : FVec Ideal ⟨3, ![B, M, N]⟩ φ₃) (ix3 b r c) = ∑ k : Fin K, L (ix3 b r k) * R (ix3 b k c) := by
  simp only [Host.dotGeneral]
  rw [Ideal.dotGeneral_apply]
  exact sum_contr_bmm d hlc hrc hln hrn hlb hrb (fun x y => L x * R y) b r c

/-! ## A sum over 4·n terms, block by block -/

/-- The sum over `Fin (4 * n)` is the sum of the four consecutive blocks of `n` terms, added in order. -/
theorem sum_four_blocks {β : Type} [AddCommMonoid β] (n : ℕ) (f : Fin (4 * n) → β) :
    ∑ i, f i = ((∑ k : Fin n, f (finProdFinEquiv ((0 : Fin 4), k)) + ∑ k : Fin n, f (finProdFinEquiv ((1 : Fin 4), k)))
      + ∑ k : Fin n, f (finProdFinEquiv ((2 : Fin 4), k))) + ∑ k : Fin n, f (finProdFinEquiv ((3 : Fin 4), k)) := by
  rw [← Equiv.sum_comp finProdFinEquiv, Fintype.sum_prod_type, Fin.sum_univ_four]

/-- The position of term `k` of block `q`. -/
theorem finProdFinEquiv_val (n : ℕ) (q : Fin 4) (k : Fin n) : (finProdFinEquiv (q, k) : Fin (4 * n)).val = k.val + n * q.val := rfl

end Cert.Lib

end
-- ==== Proof.LibTake0.lean ====
/-
  `stablehlo.gather` that takes whole [P, Q] slabs of a rank-3 operand [N, P, Q] along axis 0, at a column [R, 1] of
  start indices — what `x[idx]` of a stack of matrices lowers to —, read at a result index (t, p, q): the operand at
  (the start index `idx[t, 0]` read signed and clamped into [0, N − 1], p, q). Stated for any extents and any
  dimension-numbers record with those axis lists.
-/
import Idealize.ShloMosaic.Lib.ValueIdx

noncomputable section

namespace Cert.Lib

open Idealize.ShloMosaic Idealize.ShloMosaic.ValueIdx

variable {N P Q R : Nat} {α : Type}

/-- Those dimension numbers. -/
def take0 (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- The gather read at (t, p, q). -/
theorem gather_take0 {w : Nat} (hN : 0 < N)
    (wf : GatherDims.WF ⟨3, ![N, P, Q]⟩ ⟨2, ![R, 1]⟩ ⟨3, ![R, P, Q]⟩ [1, 2] [0] [] [0] [] 1 ![1, P, Q])
    (x : (⟨3, ![N, P, Q]⟩ : Shape).Idx → α) (idx : IVec ⟨2, ![R, 1]⟩ w) (t : Fin R) (p : Fin P) (q : Fin Q) :
    Host.gather (take0 wf) x idx (ix3 t p q)
      = x (ix3 ⟨min (idx (ix2 t (0 : Fin 1))).toInt.toNat (N - 1), by omega⟩ p q) := by
  unfold Host.gather
  congr 1
  funext a
  refine Fin.ext ?_
  match a with
  | ⟨0, _⟩ =>
    show (take0 wf).start (ix3 t p q) idx 0 + (take0 wf).batchCoord (ix3 t p q) 0 + (take0 wf).offCoord (ix3 t p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (take0 wf).startIndexMap from List.mem_singleton.mpr rfl)]
    have hsi : (take0 wf).siIdx (ix3 t p q) ⟨List.idxOf (0 : Fin 3) (take0 wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (take0 wf).start (ix3 t p q) idx 1 + (take0 wf).batchCoord (ix3 t p q) 1 + (take0 wf).offCoord (ix3 t p q) 1 = _
    rw [GatherDims.batchCoord_eq_zero _ _ _ List.not_mem_nil]
    unfold GatherDims.start
    rw [dif_neg (show ¬ (1 : Fin 3) ∈ (take0 wf).startIndexMap by simp [take0])]
    unfold GatherDims.offCoord
    rw [dif_pos (show (1 : Fin 3) ∈ (take0 wf).sKept from (GatherDims.mem_sKept _ _).mpr ⟨by simp [take0], List.not_mem_nil⟩)]
    simp only [Nat.add_zero, Nat.zero_add]
    rfl
  | ⟨2, _⟩ =>
    show (take0 wf).start (ix3 t p q) idx 2 + (take0 wf).batchCoord (ix3 t p q) 2 + (take0 wf).offCoord (ix3 t p q) 2 = _
    rw [GatherDims.batchCoord_eq_zero _ _ _ List.not_mem_nil]
    unfold GatherDims.start
    rw [dif_neg (show ¬ (2 : Fin 3) ∈ (take0 wf).startIndexMap by simp [take0])]
    unfold GatherDims.offCoord
    rw [dif_pos (show (2 : Fin 3) ∈ (take0 wf).sKept from (GatherDims.mem_sKept _ _).mpr ⟨by simp [take0], List.not_mem_nil⟩)]
    simp only [Nat.add_zero, Nat.zero_add]
    rfl

/-- The same for any record with those axis lists. -/
theorem gather_take0_apply {w : Nat} (hN : 0 < N) (d : GatherDims ⟨3, ![N, P, Q]⟩ ⟨2, ![R, 1]⟩ ⟨3, ![R, P, Q]⟩)
    (ho : d.offsetDims = [1, 2]) (hc : d.collapsedSliceDims = [0]) (hb : d.operandBatchingDims = [])
    (hsb : d.startIndicesBatchingDims = []) (hm : d.startIndexMap = [0]) (hv : d.indexVectorDim = 1)
    (hs : d.sliceSizes = ![1, P, Q])
    (x : (⟨3, ![N, P, Q]⟩ : Shape).Idx → α) (idx : IVec ⟨2, ![R, 1]⟩ w) (t : Fin R) (p : Fin P) (q : Fin Q) :
    Host.gather d x idx (ix3 t p q) = x (ix3 ⟨min (idx (ix2 t (0 : Fin 1))).toInt.toNat (N - 1), by omega⟩ p q) := by
  obtain ⟨od, cd, ob, sb, sm, iv, ss, wf'⟩ := d
  simp only at ho hc hb hsb hm hv hs
  subst ho hc hb hsb hm hv hs
  exact gather_take0 hN wf' x idx t p q

end Cert.Lib

end
-- ==== Proof.KI.Host.lean ====
/-
  What the region finds in the arrays its windows stage, over the extended reals: the casts of x, W and B are the
  arguments themselves (a change of float format is the identity); the prefetched table is the clipped adapter
  index; the projection array is x·A[a] of the adapter a of the batch — the take's wrap of negative indices and its
  range mask do nothing at a clipped index.
-/
import proofs.«414927_j48524540510408_3_alg».proof.Proof.KI.Table
import proofs.«414927_j48524540510408_3_alg».proof.Proof.KI.Pay
import proofs.«414927_j48524540510408_3_alg».proof.Proof.LibBatchDot
import proofs.«414927_j48524540510408_3_alg».proof.Proof.LibTake0
import Idealize.ShloMosaic.Lib.ReduceAll

set_option maxRecDepth 16384

noncomputable section

namespace Cert.KernelIdeal.Val

open Cert.KernelIdeal Cert.KernelIdeal.Gen Cert.KernelIdeal.Fr Cert.Lib
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arguments and the staged arrays at their literal types -/

abbrev aX (c : Dev nD) : FVec Ideal S8x2048x4096 .f32 := m ((c : Thread nD τ).loc main_arg0)
abbrev aI (c : Dev nD) : IVec S8 32 := m ((c : Thread nD τ).loc main_arg1)
abbrev aW (c : Dev nD) : FVec Ideal S4096x4096 .f32 := m ((c : Thread nD τ).loc main_arg2)
abbrev aA (c : Dev nD) : FVec Ideal S16x4096x16 .f32 := m ((c : Thread nD τ).loc main_arg3)
abbrev aB (c : Dev nD) : FVec Ideal S16x16x4096 .f32 := m ((c : Thread nD τ).loc main_arg4)

abbrev xArr (c : Dev nD) : FVec Ideal S8x2048x4096 .bf16 := V m c main_v1
abbrev wArr (c : Dev nD) : FVec Ideal S4096x4096 .bf16 := V m c main_v2
abbrev bArr (c : Dev nD) : FVec Ideal S16x16x4096 .bf16 := V m c main_v3
abbrev xrArr (c : Dev nD) : FVec Ideal S8x2048x16 .bf16 := V m c main_v7
abbrev tArr (c : Dev nD) : IVec S8 32 := V m c main_v0

/-- The adapter the kernel uses for batch `b`: the clipped index. -/
def adK (c : Dev nD) (b : Fin 8) : Fin 16 := ⟨(clipw (aI m c (ix1 b))).toNat, clipw_lt _⟩

/-! ## A reduce by `and` of an all-ones array is 1 -/

theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl, hi]
  exact foldl_andi_ones x hx _

/-! ## The kernel's take of A at the clipped index vector -/

/-- The clip of the index vector, as the host operations spell it. -/
def clipI (i : IVec S8 32) : IVec S8 32 :=
  minsi (broadcastInDim S8 ![] bcast_S_S8 (id (constantI S_ 32 15#32)))
    (maxsi (broadcastInDim S8 ![] bcast_S_S8 (id (constantI S_ 32 0#32))) i)

/-- The take's start indices: negative entries wrapped by the array's extent, as a column. -/
def wrapI (v0 : IVec S8 32) : IVec S8x1 32 :=
  broadcastInDim S8x1 ![0] bcast_S8_S8x1_0
    (select (cmpi .slt v0 (broadcastInDim S8 ![] bcast_S_S8 (constantI S_ 32 0#32)))
      (addi v0 (broadcastInDim S8 ![] bcast_S_S8 (constantI S_ 32 16#32))) v0)

/-- The take's range mask per batch: every start index at least 0 and at most 15. -/
def maskI (v0 : IVec S8 32) : IVec S8 1 :=
  Host.reduce IntOp.andi
    (andi (cmpi .sge (wrapI v0) (broadcastInDim S8x1 ![] bcast_S_S8x1 (constantI S_ 32 0#32)))
      (cmpi .sle (wrapI v0) (broadcastInDim S8x1 ![0, 1] bcast_S1x1_S8x1_0_1 (broadcastInDim S1x1 ![1] bcast_S1_S1x1_1 (constantI S1 32 15#32)))))
    (constantI S_ 1 1#1) reducesTo_S8x1_S8_d1 h_S_

/-- The take: the gathered slabs where the mask holds, the fill elsewhere. -/
def takeA (A : FVec Ideal S16x4096x16 .f32) (v0 : IVec S8 32) : FVec Ideal S8x4096x16 .f32 :=
  select (broadcastInDim S8x4096x16 ![0] bcast_S8_S8x4096x16_0 (maskI v0))
    (Host.gather gather_S16x4096x16_S8x1_S8x4096x16_12_0_n_n_0_1_1409616 A (wrapI v0))
    (broadcastInDim S8x4096x16 ![] bcast_S_S8x4096x16 (constant S_ .f32 0x7FC00000#32))

/-! ## The region-entry contents -/

theorem xArr_eq (c : Dev nD) : xArr m c = truncf .bf16 (aX m c) bitsLt_bf16_f32 := by
  show V m c main_v1 = _
  dsimp only [V]
  simp only [hostOps0, hostOps0_1, hostOps0_2, hostOps0_3, hostOps0_4, List.flatten_cons, List.flatten_nil, List.append_nil, List.cons_append,
    List.nil_append]
  after_results

theorem wArr_eq (c : Dev nD) : wArr m c = truncf .bf16 (aW m c) bitsLt_bf16_f32 := by
  show V m c main_v2 = _
  dsimp only [V]
  simp only [hostOps0, hostOps0_1, hostOps0_2, hostOps0_3, hostOps0_4, List.flatten_cons, List.flatten_nil, List.append_nil, List.cons_append,
    List.nil_append]
  after_results

theorem bArr_eq (c : Dev nD) : bArr m c = truncf .bf16 (aB m c) bitsLt_bf16_f32 := by
  show V m c main_v3 = _
  dsimp only [V]
  simp only [hostOps0, hostOps0_1, hostOps0_2, hostOps0_3, hostOps0_4, List.flatten_cons, List.flatten_nil, List.append_nil, List.cons_append,
    List.nil_append]
  after_results

theorem tArr_eq (c : Dev nD) : tArr m c = clipI (aI m c) := by
  show V m c main_v0 = _
  dsimp only [V]
  simp only [hostOps0, hostOps0_1, hostOps0_2, hostOps0_3, hostOps0_4, List.flatten_cons, List.flatten_nil, List.append_nil, List.cons_append,
    List.nil_append]
  after_results
  rfl

theorem xrArr_eq (c : Dev nD) : xrArr m c = truncf .bf16 (Host.dotGeneral dot_S8x2048x4096_S8x4096x16_S8x2048x16_2_1_1_2_0_0 none
      (truncf .bf16 (aX m c) bitsLt_bf16_f32) (truncf .bf16 (takeA (aA m c) (clipI (aI m c))) bitsLt_bf16_f32)) bitsLt_bf16_f32 := by
  show V m c main_v7 = _
  dsimp only [V]
  simp only [hostOps0, hostOps0_1, hostOps0_2, hostOps0_3, hostOps0_4, List.flatten_cons, List.flatten_nil, List.append_nil, List.cons_append,
    List.nil_append]
  after_results_simp
  simp only [StableHlo.TRef.toBuf, StableHlo.TRef.ofBuf, cast_eq]
  rfl

/-! ## The staged arrays at an index -/

theorem xArr_apply (c : Dev nD) (i : S8x2048x4096.Idx) : xArr m c i = aX m c i := by rw [xArr_eq]; rfl
theorem wArr_apply (c : Dev nD) (i : S4096x4096.Idx) : wArr m c i = aW m c i := by rw [wArr_eq]; rfl
theorem bArr_apply (c : Dev nD) (i : S16x16x4096.Idx) : bArr m c i = aB m c i := by rw [bArr_eq]; rfl

theorem clipI_apply (i : IVec S8 32) (j : S8.Idx) : clipI i j = clipw (i j) := rfl

/-- The table's word for batch `b` is the adapter the kernel uses. -/
theorem tArr_toNat (c : Dev nD) (b : Fin 8) : (tArr m c (ix1 b)).toNat = (adK m c b).val := by
  rw [tArr_eq]; rfl

/-- The wrap does nothing to a clipped index. -/
theorem wrapI_clip (i : IVec S8 32) (b : Fin 8) (u : Fin 1) : wrapI (clipI i) (ix2 b u) = clipw (i (ix1 b)) := by
  unfold wrapI
  rw [broadcastInDim_apply _ bcast_S8_S8x1_0 _ _ (ix1 b) (fun a => match a with
    | ⟨0, _⟩ => by show b.val = if (8 : Nat) = 1 then 0 else b.val; rw [if_neg (by decide)])]
  exact wrap_clipw _

/-- The range mask is all ones at a clipped index vector. -/
theorem maskI_clip (i : IVec S8 32) (j : S8.Idx) : maskI (clipI i) j = 1#1 := by
  unfold maskI
  refine reduce_andi_ones _ _ _ _ (fun _ => rfl) (fun y => ?_) j
  obtain ⟨b, u, rfl⟩ : ∃ (b : Fin 8) (u : Fin 1), y = ix2 b u := ⟨y 0, y 1, eq_ix2 y⟩
  show IntOp.andi (IntOp.cmpi .sge (wrapI (clipI i) (ix2 b u)) 0#32) (IntOp.cmpi .sle (wrapI (clipI i) (ix2 b u)) 15#32) = 1#1
  rw [wrapI_clip]
  exact inrange_clipw _

/-- The take reads A at the adapter of the batch. -/
theorem takeA_apply (A : FVec Ideal S16x4096x16 .f32) (i : IVec S8 32) (b : Fin 8) (k : Fin 4096) (r : Fin 16) :
    takeA A (clipI i) (ix3 b k r) = A (ix3 (⟨(clipw (i (ix1 b))).toNat, clipw_lt _⟩ : Fin 16) k r) := by
  have hg := gather_take0_apply (N := 16) (P := 4096) (Q := 16) (R := 8) (by decide)
    gather_S16x4096x16_S8x1_S8x4096x16_12_0_n_n_0_1_1409616 rfl rfl rfl rfl rfl rfl rfl A (wrapI (clipI i)) b k r
  unfold takeA
  rw [select_apply, broadcastInDim_apply _ bcast_S8_S8x4096x16_0 _ _ (ix1 b) (fun a => match a with
    | ⟨0, _⟩ => by show b.val = if (8 : Nat) = 1 then 0 else b.val; rw [if_neg (by decide)]),
    maskI_clip, select_one]
  refine hg.trans ?_
  refine congrArg A (congrArg (fun z => ix3 z k r) (Fin.ext ?_))
  show min (wrapI (clipI i) (ix2 b (0 : Fin 1))).toInt.toNat (16 - 1) = (clipw (i (ix1 b))).toNat
  rw [wrapI_clip, clipw_toInt_toNat]
  have := clipw_lt (i (ix1 b))
  omega

/-- The projection array: x·A[a] of the batch's adapter. -/
theorem xrArr_apply (c : Dev nD) (b : Fin 8) (s : Fin 2048) (r : Fin 16) :
    xrArr m c (ix3 b s r) = ∑ k : Fin 4096, aX m c (ix3 b s k) * aA m c (ix3 (adK m c b) k r) := by
  rw [xrArr_eq, truncf_apply, dotGeneral_bmm_apply (φ₃ := .f32) _ rfl rfl rfl rfl rfl rfl]
  refine Finset.sum_congr rfl fun k _ => ?_
  rw [truncf_apply, truncf_apply, takeA_apply]
  rfl

end Cert.KernelIdeal.Val

end
-- ==== Proof.KI.Runs.lean ====
/-
  The kernel body run symbolically on any whole staging memrefs, once per control case of the reduction axis:
  the first step (the block x·W is stored), a middle step (x·W is added to what the buffer holds), and the last
  step (x·W is added, then the low-rank term (x·A)·B). Each run is a subtype: the pieces the stores leave in the
  output's buffer are the witness the executor finds.
-/
import proofs.«414927_j48524540510408_3_alg».proof.Proof.KI.Kit

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- First step of the reduction axis: only the first branch is taken. -/
noncomputable def kernelRun0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg8 fullShare d)
            ∗ (iprop(owns (c : Thread nD τ) arg4 fullShare x0 ∗ owns (c : Thread nD τ) arg5 fullShare x1 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%d4, %f4, -, H4⟩, Hk⟩
    obtain rfl := harg4.eq_unread hf0; obtain rfl := harg5.eq_unread hf1
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    iexists _; iexact H4

set_option maxHeartbeats 1000000 in
/-- A middle step: only the second branch is taken; the output's buffer is read at its running contents. -/
noncomputable def kernelRun0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ owns (c : Thread nD τ) arg8 fullShare xo
            ∗ (iprop(owns (c : Thread nD τ) arg4 fullShare x0 ∗ owns (c : Thread nD τ) arg5 fullShare x1 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f4, %hf4, H4⟩, Hk⟩
    obtain rfl := harg4.eq_unread hf0; obtain rfl := harg5.eq_unread hf1; obtain rfl := harg8.eq_unread hf4
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    iexists _; iexact H4

set_option maxHeartbeats 1000000 in
/-- The last step: the second and the third branch are taken; the low-rank operands are read too. -/
noncomputable def kernelRun0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) :
    { L4 : List (View.Piece (Elt F) S1x2048x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4)) -∗ K ⟨⟩))
          ⊢ wp frame (wpE (defs₀ (F := F)) Variants.none c none) E (cc0__lora_kernel i tbM0_0 htbM0_0 arg4 harg4 arg5 harg5 arg6 harg6 arg7 harg7 arg8 harg8) K } := by
  refine ⟨?_, fun E K => ?run⟩
  case run =>
    simp only [cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg4.eq_unread hf0; obtain rfl := harg5.eq_unread hf1; obtain rfl := harg6.eq_unread hf2; obtain rfl := harg7.eq_unread hf3; obtain rfl := harg8.eq_unread hf4
    sl_exec (disch := first | exact hc1 | exact hc2 | exact hc3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.KernelIdeal.Fr

end
-- ==== Proof.KI.Frame.lean ====
/-
  The frame of the low-rank-adapter matmul kernel: what the output's staging buffer holds after each grid point
  — the running sum over the reduction axis: reset where the axis starts, added to at every later step, the
  low-rank term joined at the last —, the pipeline's proof data, the body obligation case by case, the launch,
  and the frame claim: the program terminates without a fault and leaves its arguments as they were.
-/
import proofs.«414927_j48524540510408_3_alg».proof.Proof.KI.Runs

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

theorem cover0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) (y : S1x2048x1024.Idx) :
    ∃ pc ∈ (kernelRun0_A c i arg4 harg4 arg5 harg5 arg6 harg6 arg7 harg7 arg8 harg8 hc1 hc2 hc3 x0 x1).1, y ∈ pc.1.set :=
  View.cover_of_wholeMem (kernelRun0_A c i arg4 harg4 arg5 harg5 arg6 harg6 arg7 harg7 arg8 harg8 hc1 hc2 hc3 x0 x1).1 (by sl_whole_mem) y

def out0_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) : Vec F S1x2048x1024 .f32 :=
  VO0_4.read (Elt F) (VO0_4.writes (Elt F) VO0_4.junk (kernelRun0_A c i arg4 harg4 arg5 harg5 arg6 harg6 arg7 harg7 arg8 harg8 hc1 hc2 hc3 x0 x1).1)

theorem cover0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) (y : S1x2048x1024.Idx) :
    ∃ pc ∈ (kernelRun0_B c i arg4 harg4 arg5 harg5 arg6 harg6 arg7 harg7 arg8 harg8 hc1 hc2 hc3 x0 x1 xo).1, y ∈ pc.1.set :=
  View.cover_of_wholeMem (kernelRun0_B c i arg4 harg4 arg5 harg5 arg6 harg6 arg7 harg7 arg8 harg8 hc1 hc2 hc3 x0 x1 xo).1 (by sl_whole_mem) y

def out0_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) : Vec F S1x2048x1024 .f32 :=
  VO0_4.read (Elt F) (VO0_4.writes (Elt F) VO0_4.junk (kernelRun0_B c i arg4 harg4 arg5 harg5 arg6 harg6 arg7 harg7 arg8 harg8 hc1 hc2 hc3 x0 x1 xo).1)

theorem cover0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) (y : S1x2048x1024.Idx) :
    ∃ pc ∈ (kernelRun0_C c i arg4 harg4 arg5 harg5 arg6 harg6 arg7 harg7 arg8 harg8 hc1 hc2 hc3 x0 x1 x2 x3 xo).1, y ∈ pc.1.set :=
  View.cover_of_wholeMem (kernelRun0_C c i arg4 harg4 arg5 harg5 arg6 harg6 arg7 harg7 arg8 harg8 hc1 hc2 hc3 x0 x1 x2 x3 xo).1 (by sl_whole_mem) y

def out0_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) : Vec F S1x2048x1024 .f32 :=
  VO0_4.read (Elt F) (VO0_4.writes (Elt F) VO0_4.junk (kernelRun0_C c i arg4 harg4 arg5 harg5 arg6 harg6 arg7 harg7 arg8 harg8 hc1 hc2 hc3 x0 x1 x2 x3 xo).1)

/-! ## The case of a point, from its position on the reduction axis -/

theorem caseA (t : Fin grid0.N) (h0 : t.val % 4 = 0) :
    k0_cond1 (grid0.coords t) = 1#1 ∧ ¬ k0_cond2 (grid0.coords t) = 1#1 ∧ ¬ k0_cond3 (grid0.coords t) = 1#1 :=
  ⟨(hcond1 t).mpr h0, fun h => (hcond2 t).mp h h0, fun h => by have := (hcond3 t).mp h; omega⟩
theorem caseB (t : Fin grid0.N) (h0 : ¬ t.val % 4 = 0) (h3 : ¬ t.val % 4 = 3) :
    ¬ k0_cond1 (grid0.coords t) = 1#1 ∧ k0_cond2 (grid0.coords t) = 1#1 ∧ ¬ k0_cond3 (grid0.coords t) = 1#1 :=
  ⟨fun h => h0 ((hcond1 t).mp h), (hcond2 t).mpr h0, fun h => h3 ((hcond3 t).mp h)⟩
theorem caseC (t : Fin grid0.N) (h3 : t.val % 4 = 3) :
    ¬ k0_cond1 (grid0.coords t) = 1#1 ∧ k0_cond2 (grid0.coords t) = 1#1 ∧ k0_cond3 (grid0.coords t) = 1#1 :=
  ⟨fun h => by have := (hcond1 t).mp h; omega, (hcond2 t).mpr (by omega), (hcond3 t).mpr h3⟩

/-! ## What the output holds after each point -/

/-- The input blocks at a point, at their literal types. -/
abbrev xb0 (hO : Ok m) (c : Dev nD) (t : Fin (cfgM m hO).N) : Vec F S1x2048x1024 .bf16 := iblk m hO c 0 t
abbrev xb1 (hO : Ok m) (c : Dev nD) (t : Fin (cfgM m hO).N) : Vec F S1024x1024 .bf16 := iblk m hO c 1 t
abbrev xb2 (hO : Ok m) (c : Dev nD) (t : Fin (cfgM m hO).N) : Vec F S1x2048x16 .bf16 := iblk m hO c 2 t
abbrev xb3 (hO : Ok m) (c : Dev nD) (t : Fin (cfgM m hO).N) : Vec F S1x16x1024 .bf16 := iblk m hO c 3 t

/-- One step of the accumulation: what the body leaves in the output's buffer at point `t`, over what the buffer
    held (`prev`: read only past the first step of the reduction axis). -/
def outAt (hO : Ok m) (c : Dev nD) (t : Fin (cfgM m hO).N) (prev : Vec F S1x2048x1024 .f32) : Vec F S1x2048x1024 .f32 :=
  if h0 : t.val % 4 = 0 then
    out0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseA t h0).1 (caseA t h0).2.1 (caseA t h0).2.2 (xb0 m hO c t) (xb1 m hO c t)
  else if h3 : t.val % 4 = 3 then
    out0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseC t h3).1 (caseC t h3).2.1 (caseC t h3).2.2 (xb0 m hO c t) (xb1 m hO c t) (xb2 m hO c t) (xb3 m hO c t) prev
  else
    out0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseB t h0 h3).1 (caseB t h0 h3).2.1 (caseB t h0 h3).2.2 (xb0 m hO c t) (xb1 m hO c t) prev

/-- The accumulation over the grid: each point's step over what the point before left. -/
def outsAt0 (hO : Ok m) (c : Dev nD) : (n : ℕ) → n < (cfgM m hO).N → Vec F S1x2048x1024 .f32
  | 0, hn => outAt m hO c ⟨0, hn⟩ (VO0_4.read (Elt F) VO0_4.junk)
  | n + 1, hn => outAt m hO c ⟨n + 1, hn⟩ (outsAt0 hO c n (Nat.lt_of_succ_lt hn))

theorem outsAt0_A (hO : Ok m) (c : Dev nD) (t : Fin (cfgM m hO).N) (h0 : t.val % 4 = 0) :
    outsAt0 m hO c t.val t.isLt = out0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseA t h0).1 (caseA t h0).2.1 (caseA t h0).2.2 (xb0 m hO c t) (xb1 m hO c t) := by
  obtain ⟨n, hn⟩ := t
  cases n with
  | zero => rw [outsAt0]; unfold outAt; rw [dif_pos h0]
  | succ n => rw [outsAt0]; unfold outAt; rw [dif_pos h0]

theorem outsAt0_B (hO : Ok m) (c : Dev nD) (t : Fin (cfgM m hO).N) (h0 : ¬ t.val % 4 = 0) (h3 : ¬ t.val % 4 = 3)
    (p : ℕ) (hp : p < (cfgM m hO).N) (hpt : p + 1 = t.val) :
    outsAt0 m hO c t.val t.isLt = out0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseB t h0 h3).1 (caseB t h0 h3).2.1 (caseB t h0 h3).2.2 (xb0 m hO c t) (xb1 m hO c t) (outsAt0 m hO c p hp) := by
  obtain ⟨n, hn⟩ := t
  cases n with
  | zero => exact absurd (Nat.zero_mod 4) h0
  | succ n =>
    obtain rfl : p = n := Nat.succ.inj hpt
    rw [outsAt0]; unfold outAt; rw [dif_neg h0, dif_neg h3]

theorem outsAt0_C (hO : Ok m) (c : Dev nD) (t : Fin (cfgM m hO).N) (h3 : t.val % 4 = 3)
    (p : ℕ) (hp : p < (cfgM m hO).N) (hpt : p + 1 = t.val) :
    outsAt0 m hO c t.val t.isLt = out0_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (caseC t h3).1 (caseC t h3).2.1 (caseC t h3).2.2 (xb0 m hO c t) (xb1 m hO c t) (xb2 m hO c t) (xb3 m hO c t) (outsAt0 m hO c p hp) := by
  have h0 : ¬ t.val % 4 = 0 := by omega
  obtain ⟨n, hn⟩ := t
  cases n with
  | zero => exact absurd (Nat.zero_mod 4) h0
  | succ n =>
    obtain rfl : p = n := Nat.succ.inj hpt
    rw [outsAt0]; unfold outAt; rw [dif_neg h0, dif_pos h3]

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The output window is never idle: at every point the first or the second branch stores into it. -/
theorem live0_4 : ∀ i : grid0.Coords, idle0 4 i = false := by decide +kernel

/-- Past the first step of the reduction axis the output's buffer holds what the step before left: it is not
    written back between. -/
theorem before0_4_acc (hO : Ok m) (c : Dev nD) (t : Fin (cfgM m hO).N) (h0 : ¬ t.val % 4 = 0) (d) :
    (dats m hO 0 c).before 4 t d = (outsAt0 m hO c (t.val - 1) (Nat.lt_of_le_of_lt (Nat.sub_le _ _) t.isLt)) := by
  rw [Dat.before_out_kept _ 4 rfl t (by omega) (Bool.eq_false_iff.mpr fun h => by have := (flush0_4 _ _).mp h; dsimp only at this; omega)
    (by intro i; exact live0_4 i) (fun _ _ => rfl)]
  exact after0_4 m hO c _

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 1600000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  by_cases h0 : t.val % 4 = 0
  · rw [outsAt0_A m hO c t h0]
    unfold out0_A
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ (caseA t h0).1 (caseA t h0).2.1 (caseA t h0).2.2 (xb0 m hO c t) (xb1 m hO c t)).2 Set.univ _)
    isplitl [H0]; · iexact H0
    isplitl [H1]; · iexact H1
    isplitl [H4]; · iexists _; iexact H4
    iintro ⟨H0, H1, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _)
  · simp only [before0_4_acc m hO c t h0]
    by_cases h3 : t.val % 4 = 3
    · rw [outsAt0_C m hO c t h3 (t.val - 1) (Nat.lt_of_le_of_lt (Nat.sub_le _ _) t.isLt) (by omega)]
      unfold out0_C
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (caseC t h3).1 (caseC t h3).2.1 (caseC t h3).2.2 (xb0 m hO c t) (xb1 m hO c t) (xb2 m hO c t) (xb3 m hO c t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C c _ _ _ _ _ _ _ _ _ _ _ _ _ _ _ _ _ _ _)
    · rw [outsAt0_B m hO c t h0 h3 (t.val - 1) (Nat.lt_of_le_of_lt (Nat.sub_le _ _) t.isLt) (by omega)]
      unfold out0_B
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (caseB t h0 h3).1 (caseB t h0 h3).2.1 (caseB t h0 h3).2.2 (xb0 m hO c t) (xb1 m hO c t) _).2 Set.univ _)
      isplitl [H0]; · iexact H0
      isplitl [H1]; · iexact H1
      isplitl [H4]; · iexact H4
      iintro ⟨H0, H1, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B c _ _ _ _ _ _ _ _ _ _ _ _ _ _ _ _ _)

theorem body_obligation (hO : Ok m) (c : Dev nD) : BodyObligation (dats (F := F) m hO 0 c) (defs₀ (F := F)) Variants.none () Set.univ := fun t => by
  rw [bigSep_W0, bigSep_W0]
  have hl : (cfgM m hO).idle (4 : Fin 5) ((cfgM m hO).grid.coords t) = false := live0_4 _
  rw [hl]
  exact sound_body m hO c t

/-! ## The run and the frame -/

set_option backward.isDefEq.respectTransparency.types false in
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

end Cert.KernelIdeal.Fr

end
-- ==== Proof.KI.Pieces.lean ====
/-
  What each case's run leaves in the output's buffer, as a value: the first step of the reduction axis leaves the
  product block x·W; a middle step leaves the buffer's contents plus x·W; the last step leaves that plus the
  low-rank block (x·A)·B. Read off the stores the runs found: each store covers the whole block.
-/
import proofs.«414927_j48524540510408_3_alg».proof.Proof.KI.Frame
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The first step: the one covering store's payload over the two input blocks. -/
theorem out_A (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : k0_cond1 i = 1#1) (hc2 : ¬ k0_cond2 i = 1#1) (hc3 : ¬ k0_cond3 i = 1#1)
    (x0 : Vec F S1x2048x1024 .bf16) (x1 : Vec F S1024x1024 .bf16) :
    out0_A c i arg4 harg4 arg5 harg5 arg6 harg6 arg7 harg7 arg8 harg8 hc1 hc2 hc3 x0 x1 = k0_pay1 x0 x1 := by
  unfold out0_A
  rw [View.read_writes_eq_canon _ _ _ (cover0_A c i arg4 harg4 arg5 harg5 arg6 harg6 arg7 harg7 arg8 harg8 hc1 hc2 hc3 x0 x1)]
  unfold kernelRun0_A
  dsimp only
  sl_unfold_words
  rw [View.canon_unit_zero hz3]
  simp only [View.readAt_eq_ld, harg4.read_unread, harg5.read_unread, View.ld_unit_zero (S := S1x2048x1024) hz3,
    View.ld_unit_zero (S := S1024x1024) hz2]

/-- A middle step: the running contents plus the product block. -/
theorem out_B (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : ¬ k0_cond3 i = 1#1)
    (x0 : Vec F S1x2048x1024 .bf16) (x1 : Vec F S1024x1024 .bf16) (xo : Vec F S1x2048x1024 .f32) :
    out0_B c i arg4 harg4 arg5 harg5 arg6 harg6 arg7 harg7 arg8 harg8 hc1 hc2 hc3 x0 x1 xo = k0_pay2 xo x0 x1 := by
  unfold out0_B
  rw [View.read_writes_eq_canon _ _ _ (cover0_B c i arg4 harg4 arg5 harg5 arg6 harg6 arg7 harg7 arg8 harg8 hc1 hc2 hc3 x0 x1 xo)]
  unfold kernelRun0_B
  dsimp only
  sl_unfold_words
  rw [View.canon_unit_zero hz3]
  simp only [View.readAt_eq_ld, harg4.read_unread, harg5.read_unread, harg8.read_unread, View.ld_unit_zero (S := S1x2048x1024) hz3,
    View.ld_unit_zero (S := S1024x1024) hz2]

/-- The last step: the second store's payload, over the first store's read back. -/
theorem out_C (c : Dev nD) (i : grid0.Coords) (arg4 : Memref sig .tc .vmem S1x2048x1024 .bf16) (harg4 : arg4.IsWhole) (arg5 : Memref sig .tc .vmem S1024x1024 .bf16) (harg5 : arg5.IsWhole) (arg6 : Memref sig .tc .vmem S1x2048x16 .bf16) (harg6 : arg6.IsWhole) (arg7 : Memref sig .tc .vmem S1x16x1024 .bf16) (harg7 : arg7.IsWhole) (arg8 : Memref sig .tc .vmem S1x2048x1024 .f32) (harg8 : arg8.IsWhole)
    (hc1 : ¬ k0_cond1 i = 1#1) (hc2 : k0_cond2 i = 1#1) (hc3 : k0_cond3 i = 1#1)
    (x0 : Vec F S1x2048x1024 .bf16) (x1 : Vec F S1024x1024 .bf16) (x2 : Vec F S1x2048x16 .bf16) (x3 : Vec F S1x16x1024 .bf16) (xo : Vec F S1x2048x1024 .f32) :
    out0_C c i arg4 harg4 arg5 harg5 arg6 harg6 arg7 harg7 arg8 harg8 hc1 hc2 hc3 x0 x1 x2 x3 xo = k0_pay3 x2 x3 (k0_pay2 xo x0 x1) := by
  unfold out0_C
  rw [View.read_writes_eq_canon _ _ _ (cover0_C c i arg4 harg4 arg5 harg5 arg6 harg6 arg7 harg7 arg8 harg8 hc1 hc2 hc3 x0 x1 x2 x3 xo)]
  unfold kernelRun0_C
  dsimp only
  sl_unfold_words
  rw [View.canon_cons_unit_zero (S := S1x2048x1024) hz3, View.readCov_unit_zero (S := S1x2048x1024) _ hz3]
  simp only [View.readAt_eq_ld, harg4.read_unread, harg5.read_unread, harg6.read_unread, harg7.read_unread, harg8.read_unread,
    View.ld_unit_zero (S := S1x2048x1024) hz3, View.ld_unit_zero (S := S1024x1024) hz2, View.ld_unit_zero (S := S1x2048x16) hz3,
    View.ld_unit_zero (S := S1x16x1024) hz3]

/-! ## The output's buffer when the reduction axis ends -/

/-- At the last step `t` of a reduction (position 3 of 4), the output's buffer holds the four steps' payloads
    nested: the three earlier points are `t - 3`, `t - 2`, `t - 1`. -/
theorem outsAt0_last (hO : Ok m) (c : Dev nD) (t : Fin (cfgM m hO).N) (h3 : t.val % 4 = 3)
    (t0 t1 t2 : Fin (cfgM m hO).N) (e0 : t0.val + 3 = t.val) (e1 : t1.val + 2 = t.val) (e2 : t2.val + 1 = t.val) :
    outsAt0 m hO c t.val t.isLt
      = k0_pay3 (xb2 m hO c t) (xb3 m hO c t)
          (k0_pay2 (k0_pay2 (k0_pay2 (k0_pay1 (xb0 m hO c t0) (xb1 m hO c t0)) (xb0 m hO c t1) (xb1 m hO c t1)) (xb0 m hO c t2) (xb1 m hO c t2))
            (xb0 m hO c t) (xb1 m hO c t)) := by
  rw [outsAt0_C m hO c t h3 t2.val t2.isLt e2, out_C,
    outsAt0_B m hO c t2 (by omega) (by omega) t1.val t1.isLt (by omega), out_B,
    outsAt0_B m hO c t1 (by omega) (by omega) t0.val t0.isLt (by omega), out_B,
    outsAt0_A m hO c t0 (by omega), out_A]

end Cert.KernelIdeal.Fr

end
-- ==== Proof.KI.Blocks.lean ====
/-
  The windows' blocks at a grid point, entry by entry, as entries of the arguments: point t is (batch t / 16, output
  tile (t / 4) % 4, reduction step t % 4); the x block is columns 1024·(t % 4) … of batch t / 16, the W block rows
  1024·(t % 4) … and columns 1024·((t / 4) % 4) …, the projection block the batch's, the B block the adapter's slab
  at the output tile's columns. The structural facts are proved at ANY admissible contents of the table and used at
  the contents the region reads.
-/
import proofs.«414927_j48524540510408_3_alg».proof.Proof.KI.Host
import proofs.«414927_j48524540510408_3_alg».proof.Proof.KI.Pieces

set_option maxRecDepth 16384

noncomputable section

namespace Cert.KernelIdeal.Val

open Cert.KernelIdeal Cert.KernelIdeal.Gen Cert.KernelIdeal.Fr Cert.Lib
open Idealize.ShloMosaic Idealize.ShloMosaic.TcCoe Idealize.ShloMosaic.ValueIdx Idealize.SL.Sem
open Idealize.ShloMosaic.Pipeline (Dat)

/-! ## The index maps over the grid, at any contents of the table -/

section AnyTable
variable (a : (pcfg0 (F := Ideal)).Adm)

theorem idx0 (t : Fin (cfg0 a).N) : ((cfg0 a).win 0).index t = ![t.val / 16, 0, t.val % 4] :=
  (by decide +kernel : ∀ t : Fin grid0.N, cc0_transform_0 (grid0.coords t) = ![t.val / 16, 0, t.val % 4]) t
theorem idx1 (t : Fin (cfg0 a).N) : ((cfg0 a).win 1).index t = ![t.val % 4, t.val / 4 % 4] :=
  (by decide +kernel : ∀ t : Fin grid0.N, cc0_transform_1 (grid0.coords t) = ![t.val % 4, t.val / 4 % 4]) t
theorem idx2 (t : Fin (cfg0 a).N) : ((cfg0 a).win 2).index t = ![t.val / 16, 0, 0] :=
  (by decide +kernel : ∀ t : Fin grid0.N, cc0_transform_2 (grid0.coords t) = ![t.val / 16, 0, 0]) t
theorem idx4 (t : Fin (cfg0 a).N) : ((cfg0 a).win 4).index t = ![t.val / 16, 0, t.val / 4 % 4] :=
  (by decide +kernel : ∀ t : Fin grid0.N, cc0_transform_4 (grid0.coords t) = ![t.val / 16, 0, t.val / 4 % 4]) t

theorem coords0 : ∀ t : Fin grid0.N, (grid0.coords t 0).val = t.val / 16 := by decide +kernel
theorem coords1 : ∀ t : Fin grid0.N, (grid0.coords t 1).val = t.val / 4 % 4 := by decide +kernel

/-- Entry (0, s, k) of the x block at point t is entry (t / 16, s, 1024·(t % 4) + k) of the array. -/
theorem emb0 (t : Fin (cfg0 a).N) (b : Fin 8) (q : Fin 4) (hb : t.val / 16 = b.val) (hq : t.val % 4 = q.val)
    (s : Fin 2048) (k : Fin 1024) :
    (((cfg0 a).win 0).blk t).view.emb (ix3 (0 : Fin 1) s k) = (ix3 b s (finProdFinEquiv (q, k)) : S8x2048x4096.Idx) := by
  have hi := idx0 a t
  funext a'; apply Fin.ext
  match a' with
  | ⟨0, _⟩ =>
    show ((cfg0 a).win 0).index t (0 : Fin 3) * 1 + 1 * 0 = b.val
    rw [hi]; show t.val / 16 * 1 + 1 * 0 = b.val; omega
  | ⟨1, _⟩ =>
    show ((cfg0 a).win 0).index t (1 : Fin 3) * 2048 + 1 * s.val = s.val
    rw [hi]; show 0 * 2048 + 1 * s.val = s.val; omega
  | ⟨2, _⟩ =>
    show ((cfg0 a).win 0).index t (2 : Fin 3) * 1024 + 1 * k.val = k.val + 1024 * q.val
    rw [hi]; show t.val % 4 * 1024 + 1 * k.val = k.val + 1024 * q.val; omega

/-- Entry (k, j) of the W block at point t is entry (1024·(t % 4) + k, 1024·((t / 4) % 4) + j) of the array. -/
theorem emb1 (t : Fin (cfg0 a).N) (q : Fin 4) (oi : Fin 4) (hq : t.val % 4 = q.val) (ho : t.val / 4 % 4 = oi.val)
    (k : Fin 1024) (j : Fin 1024) :
    (((cfg0 a).win 1).blk t).view.emb (ix2 k j) = (ix2 (finProdFinEquiv (q, k)) (finProdFinEquiv (oi, j)) : S4096x4096.Idx) := by
  have hi := idx1 a t
  funext a'; apply Fin.ext
  match a' with
  | ⟨0, _⟩ =>
    show ((cfg0 a).win 1).index t (0 : Fin 2) * 1024 + 1 * k.val = k.val + 1024 * q.val
    rw [hi]; show t.val % 4 * 1024 + 1 * k.val = k.val + 1024 * q.val; omega
  | ⟨1, _⟩ =>
    show ((cfg0 a).win 1).index t (1 : Fin 2) * 1024 + 1 * j.val = j.val + 1024 * oi.val
    rw [hi]; show t.val / 4 % 4 * 1024 + 1 * j.val = j.val + 1024 * oi.val; omega

/-- Entry (0, s, r) of the projection block at point t is entry (t / 16, s, r) of the array. -/
theorem emb2 (t : Fin (cfg0 a).N) (b : Fin 8) (hb : t.val / 16 = b.val) (s : Fin 2048) (r : Fin 16) :
    (((cfg0 a).win 2).blk t).view.emb (ix3 (0 : Fin 1) s r) = (ix3 b s r : S8x2048x16.Idx) := by
  have hi := idx2 a t
  funext a'; apply Fin.ext
  match a' with
  | ⟨0, _⟩ =>
    show ((cfg0 a).win 2).index t (0 : Fin 3) * 1 + 1 * 0 = b.val
    rw [hi]; show t.val / 16 * 1 + 1 * 0 = b.val; omega
  | ⟨1, _⟩ =>
    show ((cfg0 a).win 2).index t (1 : Fin 3) * 2048 + 1 * s.val = s.val
    rw [hi]; show 0 * 2048 + 1 * s.val = s.val; omega
  | ⟨2, _⟩ =>
    show ((cfg0 a).win 2).index t (2 : Fin 3) * 16 + 1 * r.val = r.val
    rw [hi]; show 0 * 16 + 1 * r.val = r.val; omega

/-- Entry (0, s, j) of the output block at point t is entry (t / 16, s, 1024·((t / 4) % 4) + j) of the array. -/
theorem emb4 (t : Fin (cfg0 a).N) (b : Fin 8) (oi : Fin 4) (hb : t.val / 16 = b.val) (ho : t.val / 4 % 4 = oi.val)
    (s : Fin 2048) (j : Fin 1024) :
    (((cfg0 a).win 4).blk t).view.emb (ix3 (0 : Fin 1) s j) = (ix3 b s (finProdFinEquiv (oi, j)) : S8x2048x4096.Idx) := by
  have hi := idx4 a t
  funext a'; apply Fin.ext
  match a' with
  | ⟨0, _⟩ =>
    show ((cfg0 a).win 4).index t (0 : Fin 3) * 1 + 1 * 0 = b.val
    rw [hi]; show t.val / 16 * 1 + 1 * 0 = b.val; omega
  | ⟨1, _⟩ =>
    show ((cfg0 a).win 4).index t (1 : Fin 3) * 2048 + 1 * s.val = s.val
    rw [hi]; show 0 * 2048 + 1 * s.val = s.val; omega
  | ⟨2, _⟩ =>
    show ((cfg0 a).win 4).index t (2 : Fin 3) * 1024 + 1 * j.val = j.val + 1024 * oi.val
    rw [hi]; show t.val / 4 % 4 * 1024 + 1 * j.val = j.val + 1024 * oi.val; omega

/-- The B block's index at point t: the table's word for the batch, then the output tile. -/
theorem idx3 (t : Fin (cfg0 a).N) (b : Fin 8) (hb : t.val / 16 = b.val) :
    ((cfg0 a).win 3).index t = ![((a.1 0 : IVec S8 32) (ix1 b)).toNat, 0, t.val / 4 % 4] := by
  have h0 := coords0 t
  have h1 := coords1 t
  show cc0_transform_3 k0_off1_inb numel1_S1 a.1 (grid0.coords t) = _
  unfold cc0_transform_3
  funext a'
  match a' with
  | ⟨0, _⟩ =>
    show ((a.1 0 : IVec S8 32) _).toNat = ((a.1 0 : IVec S8 32) (ix1 b)).toNat
    refine congrArg (fun z => ((a.1 0 : IVec S8 32) z).toNat) (funext fun d => Fin.ext ?_)
    match d with
    | ⟨0, _⟩ =>
      show (BitVec.ofNat 32 (grid0.coords t 0).val).toNat + 1 * 0 = b.val
      rw [h0, BitVec.toNat_ofNat, Nat.mod_eq_of_lt (by have := t.isLt; have : grid0.N = 128 := N_0; omega)]; omega
  | ⟨1, _⟩ => rfl
  | ⟨2, _⟩ =>
    show (BitVec.ofNat 32 (grid0.coords t 1).val).toNat = t.val / 4 % 4
    rw [h1, BitVec.toNat_ofNat, Nat.mod_eq_of_lt (by omega)]

/-- Entry (0, r, j) of the B block at point t is entry (the table's word, r, 1024·((t / 4) % 4) + j) of the array. -/
theorem emb3 (t : Fin (cfg0 a).N) (b : Fin 8) (oi : Fin 4) (ad : Fin 16) (hb : t.val / 16 = b.val) (ho : t.val / 4 % 4 = oi.val)
    (had : ((a.1 0 : IVec S8 32) (ix1 b)).toNat = ad.val) (r : Fin 16) (j : Fin 1024) :
    (((cfg0 a).win 3).blk t).view.emb (ix3 (0 : Fin 1) r j) = (ix3 ad r (finProdFinEquiv (oi, j)) : S16x16x4096.Idx) := by
  have hi := idx3 a t b hb
  funext a'; apply Fin.ext
  match a' with
  | ⟨0, _⟩ =>
    show ((cfg0 a).win 3).index t (0 : Fin 3) * 1 + 1 * 0 = ad.val
    rw [hi]; show ((a.1 0 : IVec S8 32) (ix1 b)).toNat * 1 + 1 * 0 = ad.val; omega
  | ⟨1, _⟩ =>
    show ((cfg0 a).win 3).index t (1 : Fin 3) * 16 + 1 * r.val = r.val
    rw [hi]; show 0 * 16 + 1 * r.val = r.val; omega
  | ⟨2, _⟩ =>
    show ((cfg0 a).win 3).index t (2 : Fin 3) * 1024 + 1 * j.val = j.val + 1024 * oi.val
    rw [hi]; show t.val / 4 % 4 * 1024 + 1 * j.val = j.val + 1024 * oi.val; omega

end AnyTable

end Cert.KernelIdeal.Val

end
-- ==== Proof.Spec.lean ====
/-
  The function both programs compute, entry by entry, over the extended reals: the linear layer's output
  x·W plus the low-rank adapter's term ((x·A[a])·B[a]) times the scaling constant, where a is the adapter
  selected for the batch. And the one law that joins the kernel's blocked accumulation to the reference's
  whole contraction: a sum over 4096 positions is the four sums over 1024 consecutive positions, added in order —
  a re-grouping of a sum, which holds of extended reals without any finiteness.
-/
import Idealize.ShloMosaic.Lib.ValueIdx
import Idealize.ShloMosaic.PureOps.Ideal
import proofs.«414927_j48524540510408_3_alg».proof.Proof.LibBatchDot

noncomputable section

namespace Cert.Spec

open Idealize.ShloMosaic Idealize.ShloMosaic.ValueIdx Cert.Lib

/-- Entry (b, s, o) of the adapted layer's output, for the adapter selection `ad` and scaling constant `one`. -/
def G (x : (⟨3, ![8, 2048, 4096]⟩ : Shape).Idx → EReal) (W : (⟨2, ![4096, 4096]⟩ : Shape).Idx → EReal)
    (A : (⟨3, ![16, 4096, 16]⟩ : Shape).Idx → EReal) (Bm : (⟨3, ![16, 16, 4096]⟩ : Shape).Idx → EReal)
    (ad : Fin 8 → Fin 16) (one : EReal) (b : Fin 8) (s : Fin 2048) (o : Fin 4096) : EReal :=
  (∑ k : Fin 4096, x (ix3 b s k) * W (ix2 k o))
    + (∑ r : Fin 16, (∑ k : Fin 4096, x (ix3 b s k) * A (ix3 (ad b) k r)) * Bm (ix3 (ad b) r o)) * one

/-- The whole array. -/
def Garr (x : (⟨3, ![8, 2048, 4096]⟩ : Shape).Idx → EReal) (W : (⟨2, ![4096, 4096]⟩ : Shape).Idx → EReal)
    (A : (⟨3, ![16, 4096, 16]⟩ : Shape).Idx → EReal) (Bm : (⟨3, ![16, 16, 4096]⟩ : Shape).Idx → EReal)
    (ad : Fin 8 → Fin 16) (one : EReal) : (⟨3, ![8, 2048, 4096]⟩ : Shape).Idx → EReal :=
  fun i => G x W A Bm ad one (i 0) (i 1) (i 2)

theorem Garr_apply (x W A Bm ad one) (b : Fin 8) (s : Fin 2048) (o : Fin 4096) :
    Garr x W A Bm ad one (ix3 b s o) = G x W A Bm ad one b s o := rfl

/-- The base term's contraction, in the four blocks of 1024 the kernel accumulates. -/
theorem base_blocks (f : Fin 4096 → EReal) :
    ∑ k : Fin 4096, f k = ((∑ k : Fin 1024, f (finProdFinEquiv ((0 : Fin 4), k)) + ∑ k : Fin 1024, f (finProdFinEquiv ((1 : Fin 4), k)))
      + ∑ k : Fin 1024, f (finProdFinEquiv ((2 : Fin 4), k))) + ∑ k : Fin 1024, f (finProdFinEquiv ((3 : Fin 4), k)) :=
  sum_four_blocks 1024 f

end Cert.Spec

end
-- ==== Proof.KI.Final.lean ====
/-
  The kernel's result array. When a reduction ends (grid position 3 of 4) the output's buffer holds the four
  product blocks added in order plus the low-rank block times the scaling constant; entry by entry that is the
  adapted layer's output at the clipped adapter index — the four blocks of 1024 contraction positions are the
  whole contraction, re-grouped. Those write-backs tile the array, so the array ends holding that function.
-/
import proofs.«414927_j48524540510408_3_alg».proof.Proof.KI.Blocks
import proofs.«414927_j48524540510408_3_alg».proof.Proof.Spec

set_option maxRecDepth 16384

noncomputable section

namespace Cert.KernelIdeal.Val

open Cert.KernelIdeal Cert.KernelIdeal.Gen Cert.KernelIdeal.Fr Cert.Lib
open Idealize.ShloMosaic Idealize.ShloMosaic.TcCoe Idealize.ShloMosaic.ValueIdx Idealize.SL.Sem
open Idealize.ShloMosaic.Pipeline (Dat)

open Cert.Spec

variable (m : (ℓ : Loc nD τ sig) → Buf (Elt Ideal) ℓ) (ρ : Dev nD → PrngReg)

/-- The kernel's result array: the adapted layer at the clipped adapter index. -/
def Gk (c : Dev nD) : FVec Ideal S8x2048x4096 .f32 :=
  Garr (aX m c) (aW m c) (aA m c) (aB m c) (adK m c) scal

/-! ## The blocks at a point, as entries of the arguments -/

theorem xb0_apply (hO : Ok m) (c : Dev nD) (t : Fin (cfgM m hO).N) (b : Fin 8) (q : Fin 4) (hb : t.val / 16 = b.val) (hq : t.val % 4 = q.val)
    (s : Fin 2048) (k : Fin 1024) :
    xb0 m hO c t (ix3 (0 : Fin 1) s k) = aX m c (ix3 b s (finProdFinEquiv (q, k))) := by
  show xArr m c ((((cfg0 (adm m hO)).win 0).blk t).view.emb (ix3 (0 : Fin 1) s k)) = _
  rw [emb0 (adm m hO) t b q hb hq s k, xArr_apply]

theorem xb1_apply (hO : Ok m) (c : Dev nD) (t : Fin (cfgM m hO).N) (q : Fin 4) (oi : Fin 4) (hq : t.val % 4 = q.val) (ho : t.val / 4 % 4 = oi.val)
    (k : Fin 1024) (j : Fin 1024) :
    xb1 m hO c t (ix2 k j) = aW m c (ix2 (finProdFinEquiv (q, k)) (finProdFinEquiv (oi, j))) := by
  show wArr m c ((((cfg0 (adm m hO)).win 1).blk t).view.emb (ix2 k j)) = _
  rw [emb1 (adm m hO) t q oi hq ho k j, wArr_apply]

theorem xb2_apply (hO : Ok m) (c : Dev nD) (t : Fin (cfgM m hO).N) (b : Fin 8) (hb : t.val / 16 = b.val) (s : Fin 2048) (r : Fin 16) :
    xb2 m hO c t (ix3 (0 : Fin 1) s r) = ∑ k : Fin 4096, aX m c (ix3 b s k) * aA m c (ix3 (adK m c b) k r) := by
  show xrArr m c ((((cfg0 (adm m hO)).win 2).blk t).view.emb (ix3 (0 : Fin 1) s r)) = _
  rw [emb2 (adm m hO) t b hb s r, xrArr_apply]

theorem xb3_apply (hO : Ok m) (c : Dev nD) (t : Fin (cfgM m hO).N) (b : Fin 8) (oi : Fin 4) (hb : t.val / 16 = b.val) (ho : t.val / 4 % 4 = oi.val)
    (r : Fin 16) (j : Fin 1024) :
    xb3 m hO c t (ix3 (0 : Fin 1) r j) = aB m c (ix3 (adK m c b) r (finProdFinEquiv (oi, j))) := by
  have had : (((adm m hO).1 0 : IVec S8 32) (ix1 b)).toNat = (adK m c b).val := by
    obtain rfl : c = 0 := Subsingleton.elim _ _
    exact tArr_toNat m 0 b
  show bArr m c ((((cfg0 (adm m hO)).win 3).blk t).view.emb (ix3 (0 : Fin 1) r j)) = _
  rw [emb3 (adm m hO) t b oi (adK m c b) hb ho had r j, bArr_apply]

/-! ## What a reduction's last point writes back -/

theorem flushed_eq (hO : Ok m) (c : Dev nD) (t : Fin (cfgM m hO).N) (hf : ((cfgM m hO).win 4).flush t = true) :
    (dats m hO 0 c).flushed 4 t = (((cfgM m hO).win 4).blk t).view.read (Elt Ideal) (Gk m c) := by
  have h3 : t.val % 4 = 3 := (flush0_4 _ t).mp hf
  have hN : t.val < 128 := lt_of_lt_of_eq t.isLt N_0
  have hNN : (cfgM m hO).N = 128 := N_0
  obtain ⟨t0, e0⟩ : ∃ t0 : Fin (cfgM m hO).N, t0.val + 3 = t.val := ⟨⟨t.val - 3, by omega⟩, by show t.val - 3 + 3 = t.val; omega⟩
  obtain ⟨t1, e1⟩ : ∃ t1 : Fin (cfgM m hO).N, t1.val + 2 = t.val := ⟨⟨t.val - 2, by omega⟩, by show t.val - 2 + 2 = t.val; omega⟩
  obtain ⟨t2, e2⟩ : ∃ t2 : Fin (cfgM m hO).N, t2.val + 1 = t.val := ⟨⟨t.val - 1, by omega⟩, by show t.val - 1 + 1 = t.val; omega⟩
  obtain ⟨b, hb⟩ : ∃ b : Fin 8, t.val / 16 = b.val := ⟨⟨t.val / 16, by omega⟩, rfl⟩
  obtain ⟨oi, ho⟩ : ∃ oi : Fin 4, t.val / 4 % 4 = oi.val := ⟨⟨t.val / 4 % 4, by omega⟩, rfl⟩
  show ((cfgM m hO).win 4).cut (grid0.coords t) ((dats m hO 0 c).after 4 t) = _
  rw [after0_4, outsAt0_last m hO c t h3 t0 t1 t2 e0 e1 e2]
  funext j
  obtain ⟨u, s, jj, rfl⟩ : ∃ (u : Fin 1) (s : Fin 2048) (jj : Fin 1024), j = ix3 u s jj :=
    ⟨j (0 : Fin 3), j (1 : Fin 3), j (2 : Fin 3), eq_ix3 (n0 := 1) (n1 := 2048) (n2 := 1024) j⟩
  obtain rfl : u = 0 := Subsingleton.elim _ _
  show k0_pay3 (F := Ideal) (xb2 m hO c t) (xb3 m hO c t)
        (k0_pay2 (k0_pay2 (k0_pay2 (k0_pay1 (xb0 m hO c t0) (xb1 m hO c t0)) (xb0 m hO c t1) (xb1 m hO c t1)) (xb0 m hO c t2) (xb1 m hO c t2))
          (xb0 m hO c t) (xb1 m hO c t)) (ix3 (0 : Fin 1) s jj)
      = Gk m c ((((cfg0 (adm m hO)).win 4).blk t).view.emb (ix3 (0 : Fin 1) s jj))
  rw [emb4 (adm m hO) t b oi hb ho s jj, pay3_apply, pay2_apply, pay2_apply, pay2_apply, pay1_apply]
  simp only [xb0_apply m hO c t0 b 0 (by omega) (by show t0.val % 4 = 0; omega), xb1_apply m hO c t0 0 oi (by show t0.val % 4 = 0; omega) (by omega),
    xb0_apply m hO c t1 b 1 (by omega) (by show t1.val % 4 = 1; omega), xb1_apply m hO c t1 1 oi (by show t1.val % 4 = 1; omega) (by omega),
    xb0_apply m hO c t2 b 2 (by omega) (by show t2.val % 4 = 2; omega), xb1_apply m hO c t2 2 oi (by show t2.val % 4 = 2; omega) (by omega),
    xb0_apply m hO c t b 3 hb (by show t.val % 4 = 3; omega), xb1_apply m hO c t 3 oi (by show t.val % 4 = 3; omega) ho,
    xb2_apply m hO c t b hb, xb3_apply m hO c t b oi hb ho]
  unfold Gk
  rw [Garr_apply]
  unfold G
  rw [base_blocks (fun k => aX m c (ix3 b s k) * aW m c (ix2 k (finProdFinEquiv (oi, jj))))]

/-! ## The write-backs tile the array -/

/-- An entry of the array is in point `t`'s output block iff each coordinate is in the block's range on its axis. -/
theorem mem_blk4 (a : (pcfg0 (F := Ideal)).Adm) (t : Fin (cfg0 a).N) (i : S8x2048x4096.Idx) :
    i ∈ (((cfg0 a).win 4).blk t).view.set ↔ ∀ d : Fin 3, ((cfg0 a).win 4).index t d * S1x2048x1024.size d ≤ (i d).val
      ∧ (i d).val < ((cfg0 a).win 4).index t d * S1x2048x1024.size d + S1x2048x1024.size d := by
  have e : (((cfg0 a).win 4).blk t).view.set = (((cfg0 a).win 4).rect t).set := View.set_slice_whole main_v8 _
  rw [e]
  exact Rect.mem_set_unit

/-- Every entry (b, s, o) is written back by the last point of the reduction of (batch b, output tile o / 1024). -/
theorem cover4 (a : (pcfg0 (F := Ideal)).Adm) (i : S8x2048x4096.Idx) :
    ∃ t : Fin (cfg0 a).N, ((cfg0 a).win 4).flush t = true ∧ i ∈ (((cfg0 a).win 4).blk t).view.set := by
  have h0 : (i 0).val < 8 := (i 0).isLt
  have h1 : (i 1).val < 2048 := (i 1).isLt
  have h2 : (i 2).val < 4096 := (i 2).isLt
  have hNN : (cfg0 a).N = 128 := N_0
  refine ⟨⟨16 * (i 0).val + 4 * ((i 2).val / 1024) + 3, by omega⟩, (flush0_4 a _).mpr (by show (16 * (i 0).val + 4 * ((i 2).val / 1024) + 3) % 4 = 3; omega), ?_⟩
  rw [mem_blk4, idx4]
  intro d
  match d with
  | ⟨0, _⟩ =>
    show (16 * (i 0).val + 4 * ((i 2).val / 1024) + 3) / 16 * 1 ≤ (i 0).val ∧ (i 0).val < (16 * (i 0).val + 4 * ((i 2).val / 1024) + 3) / 16 * 1 + 1
    omega
  | ⟨1, _⟩ =>
    show 0 * 2048 ≤ (i 1).val ∧ (i 1).val < 0 * 2048 + 2048
    omega
  | ⟨2, _⟩ =>
    show (16 * (i 0).val + 4 * ((i 2).val / 1024) + 3) / 4 % 4 * 1024 ≤ (i 2).val ∧ (i 2).val < (16 * (i 0).val + 4 * ((i 2).val / 1024) + 3) / 4 % 4 * 1024 + 1024
    omega

/-- So the result array ends holding the adapted layer's output at the clipped adapter index. -/
theorem final4 (hO : Ok m) (c : Dev nD) : (dats m hO 0 c).arrAt 4 (cfgM m hO).N = Gk m c :=
  (dats m hO 0 c).arrAt_eq_of_cover 4 (Gk m c) (flushed_eq m hO c) (cover4 (adm m hO))

/-! ## The run, read -/

/-- Every weakly fair execution terminates with the result array at `Gk` and the arguments as launched. -/
theorem run (hO : Ok m) : θ_run defs (onTc (τ := τ) (main (F := Ideal))) ⟨m, fun _ => 0, ρ⟩ fun r => ∀ c : Dev nD,
      r.2.mem ((c.tc : Thread nD τ).loc main_v8) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final4 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO)

end Cert.KernelIdeal.Val

end
-- ==== Proof.Ref.Value.lean ====
/-
  The reference program's result, entry by entry: x·W plus ((x·A[a])·B[a]) times the scaling constant, where
  a is the start index the reference's gathers use for the batch — the adapter index, a negative entry wrapped by
  the table's extent 16, then clamped into [0, 15]. The reference's operations are read one at a time through the
  generated stage lemmas; its two gathers (which those do not read) take whole slabs along axis 0.
-/
import proofs.«414927_j48524540510408_3_alg».proof.Proof.Gen.ReferenceIdeal.Read
import proofs.«414927_j48524540510408_3_alg».proof.Proof.Spec
import proofs.«414927_j48524540510408_3_alg».proof.Proof.LibTake0
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Lib Cert.Spec
open Idealize.ShloMosaic Idealize.ShloMosaic.ValueIdx

/-- The index the reference's gathers start at for batch `b`: negative entries wrapped. -/
def wrapR (x1 : IVec S8 32) (b : Fin 8) : BitVec 32 :=
  Scalar.select (IntOp.cmpi .slt (x1 (ix1 b)) 0#32) (IntOp.addi (x1 (ix1 b)) 16#32) (x1 (ix1 b))

/-- The adapter the reference uses for batch `b`: that index clamped into the table. -/
def adR (x1 : IVec S8 32) (b : Fin 8) : Fin 16 := ⟨min (wrapR x1 b).toInt.toNat (16 - 1), by omega⟩

theorem v6_apply (x1 : IVec S8 32) (b : Fin 8) (u : Fin 1) : val_main_v6 (F := Ideal) x1 (ix2 b u) = wrapR x1 b := by
  rw [val_main_v6_apply]
  have e : idx_main_v6 (ix2 b u) = ix1 b := funext fun a => Fin.ext (by match a with | ⟨0, _⟩ => rfl)
  rw [e]
  rfl

theorem v13_apply (x1 : IVec S8 32) (b : Fin 8) (u : Fin 1) : val_main_v13 (F := Ideal) x1 (ix2 b u) = wrapR x1 b := by
  rw [val_main_v13_apply]
  have e : idx_main_v13 (ix2 b u) = ix1 b := funext fun a => Fin.ext (by match a with | ⟨0, _⟩ => rfl)
  rw [e]
  rfl

/-- The gathered A: the adapter's slab. -/
theorem v7_apply (x1 : IVec S8 32) (x3 : FVec Ideal S16x4096x16 .f32) (b : Fin 8) (k : Fin 4096) (r : Fin 16) :
    val_main_v7 (F := Ideal) x1 x3 (ix3 b k r) = x3 (ix3 (adR x1 b) k r) := by
  unfold val_main_v7
  refine (gather_take0_apply (N := 16) (P := 4096) (Q := 16) (R := 8) (by decide)
    gather_S16x4096x16_S8x1_S8x4096x16_12_0_n_n_0_1_1409616 rfl rfl rfl rfl rfl rfl rfl x3 (val_main_v6 (F := Ideal) x1) b k r).trans ?_
  refine congrArg x3 (congrArg (fun z => ix3 z k r) (Fin.ext ?_))
  show min (val_main_v6 (F := Ideal) x1 (ix2 b (0 : Fin 1))).toInt.toNat (16 - 1) = min (wrapR x1 b).toInt.toNat (16 - 1)
  rw [v6_apply]

/-- The gathered B: the adapter's slab. -/
theorem v14_apply (x1 : IVec S8 32) (x4 : FVec Ideal S16x16x4096 .f32) (b : Fin 8) (r : Fin 16) (o : Fin 4096) :
    val_main_v14 (F := Ideal) x1 x4 (ix3 b r o) = x4 (ix3 (adR x1 b) r o) := by
  unfold val_main_v14
  refine (gather_take0_apply (N := 16) (P := 16) (Q := 4096) (R := 8) (by decide)
    gather_S16x16x4096_S8x1_S8x16x4096_12_0_n_n_0_1_1164096 rfl rfl rfl rfl rfl rfl rfl x4 (val_main_v13 (F := Ideal) x1) b r o).trans ?_
  refine congrArg x4 (congrArg (fun z => ix3 z r o) (Fin.ext ?_))
  show min (val_main_v13 (F := Ideal) x1 (ix2 b (0 : Fin 1))).toInt.toNat (16 - 1) = min (wrapR x1 b).toInt.toNat (16 - 1)
  rw [v13_apply]

/-! ## The operand indices of the three products, by coordinates -/

theorem l0 (b : Fin 8) (s : Fin 2048) (o : Fin 4096) (k : Fin 4096) : lidx_main_v0 (ix3 b s o) k = ix3 b s k :=
  funext fun a => Fin.ext (by match a with | ⟨0, _⟩ => rfl | ⟨1, _⟩ => rfl | ⟨2, _⟩ => rfl)
theorem r0 (b : Fin 8) (s : Fin 2048) (o : Fin 4096) (k : Fin 4096) : ridx_main_v0 (ix3 b s o) k = ix2 k o :=
  funext fun a => Fin.ext (by match a with | ⟨0, _⟩ => rfl | ⟨1, _⟩ => rfl)
theorem l15 (b : Fin 8) (s : Fin 2048) (r : Fin 16) (k : Fin 4096) : lidx_main_v15 (ix3 b s r) k = ix3 b s k :=
  funext fun a => Fin.ext (by match a with | ⟨0, _⟩ => rfl | ⟨1, _⟩ => rfl | ⟨2, _⟩ => rfl)
theorem r15 (b : Fin 8) (s : Fin 2048) (r : Fin 16) (k : Fin 4096) : ridx_main_v15 (ix3 b s r) k = ix3 b k r :=
  funext fun a => Fin.ext (by match a with | ⟨0, _⟩ => rfl | ⟨1, _⟩ => rfl | ⟨2, _⟩ => rfl)
theorem l16 (b : Fin 8) (s : Fin 2048) (o : Fin 4096) (r : Fin 16) : lidx_main_v16 (ix3 b s o) r = ix3 b s r :=
  funext fun a => Fin.ext (by match a with | ⟨0, _⟩ => rfl | ⟨1, _⟩ => rfl | ⟨2, _⟩ => rfl)
theorem r16 (b : Fin 8) (s : Fin 2048) (o : Fin 4096) (r : Fin 16) : ridx_main_v16 (ix3 b s o) r = ix3 b r o :=
  funext fun a => Fin.ext (by match a with | ⟨0, _⟩ => rfl | ⟨1, _⟩ => rfl | ⟨2, _⟩ => rfl)

/-- The reference's result is the adapted layer at its adapter selection. -/
theorem ref_eq (x0 : FVec Ideal S8x2048x4096 .f32) (x1 : IVec S8 32) (x2 : FVec Ideal S4096x4096 .f32)
    (x3 : FVec Ideal S16x4096x16 .f32) (x4 : FVec Ideal S16x16x4096 .f32) :
    val_main_v19 (F := Ideal) x0 x1 x2 x3 x4 = Garr x0 x2 x3 x4 (adR x1) (FloatOps.ofBits (F := Ideal) .f32 0x3F800000#32) := by
  funext i
  obtain ⟨b, s, o, rfl⟩ : ∃ (b : Fin 8) (s : Fin 2048) (o : Fin 4096), i = ix3 b s o := ⟨i 0, i 1, i 2, eq_ix3 i⟩
  rw [val_main_v19_apply, val_main_v18_apply, val_main_v0_apply, val_main_v16_apply, val_main_v17_apply, val_main_cst_apply,
    Garr_apply]
  unfold G
  simp only [val_main_v15_apply, l0, r0, l15, r15, l16, r16, v7_apply, v14_apply]
  rfl

end Cert.ReferenceIdeal.RefValue

end
-- ==== Proof.PreFacts.lean ====
/-
  The precondition, read back at the adapter index: every float input finite, and every entry of the index in
  [0, 16) — of which the value proof uses the index's range only: a word w with 0 ≤ w < 16 (signed) is its own
  clip into [0, 15], is left alone by the wrap of negative indices, and reads the same signed and unsigned.
-/
import proofs.«414927_j48524540510408_3_alg».proof.Pre_finite_inputs
import Idealize.ShloMosaic.Lib.ReduceAll
import Idealize.ShloMosaic.Lib.ValueIdx

noncomputable section

namespace Cert.PreFacts

open Cert.Pre_finite_inputs Idealize.ShloMosaic

variable {F : FTy → Type} [FloatOps F] [Cert.Pre_finite_inputs.Facts]

instance : Subsingleton S_.Idx := ⟨fun a b => funext fun d => d.elim0⟩

theorem ofBool_eq_one (b : Bool) : BitVec.ofBool b = 1#1 ↔ b = true := by cases b <;> decide

/-- The index's two range conjuncts, entry by entry. -/
theorem idx_range (a0 : FVec F S8x2048x4096 .f32) (a1 : IVec S8 32) (a2 : FVec F S4096x4096 .f32)
    (a3 : FVec F S16x4096x16 .f32) (a4 : FVec F S16x16x4096 .f32)
    (h : fn (F := F) a0 a1 a2 a3 a4 = fun _ => 1#1) (i : S8.Idx) :
    (0#32 : BitVec 32).sle (a1 i) = true ∧ (a1 i).slt 16#32 = true := by
  have e := congrFun h ValueIdx.ix0
  unfold fn fn_part1 at e
  dsimp only at e
  obtain ⟨e1, e25⟩ := IntOp.andi_eq_one.1 e
  obtain ⟨e2, e21⟩ := IntOp.andi_eq_one.1 e1
  have g0 := Host.reduce_andi_all _ _ _ _ _ e21 i
  have g16 := Host.reduce_andi_all _ _ _ _ _ e25 i
  exact ⟨(ofBool_eq_one _).1 g0, (ofBool_eq_one _).1 g16⟩

/-- A word in [0, 16) signed: not negative, and its signed reading is its unsigned value, below 16. -/
theorem word_range (w : BitVec 32) (h0 : (0#32 : BitVec 32).sle w = true) (h16 : w.slt 16#32 = true) :
    w.slt 0#32 = false ∧ w.toNat < 16 ∧ w.toInt.toNat = w.toNat := by
  have h32 := w.isLt
  simp only [BitVec.sle, BitVec.slt, decide_eq_true_eq] at h0 h16
  have z : (0#32 : BitVec 32).toInt = 0 := by decide
  have s : (16#32 : BitVec 32).toInt = 16 := by decide
  rw [z] at h0; rw [s] at h16
  have hlt : w.toNat < 16 := by
    unfold BitVec.toInt at h0 h16
    split at h16 <;> omega
  have hint : w.toInt = (w.toNat : Int) := by
    unfold BitVec.toInt; rw [if_pos (by omega)]
  refine ⟨?_, hlt, by rw [hint]; rfl⟩
  simp only [BitVec.slt, decide_eq_false_iff_not, z]
  omega

end Cert.PreFacts

end
-- ==== Proof.lean ====
/-
  The certificate of the low-rank-adapter matmul kernel against its jnp reference.

  The kernel computes out = x·W + ((x·A[a])·B[a])·scale for the adapter a of each batch: the projection x·A[a] by
  one host product before its pallas_call, and inside the call the product x·W accumulated over four blocks of the
  contraction axis in the output's buffer (written where the axis starts, added to at each later step), the
  low-rank term (x·A[a])·B[a] joined at the last step; B's slab is selected through a prefetched table, the adapter
  index clipped into [0, 15]. The reference computes the same three products whole, indexing A and B by the
  adapter index with negative entries wrapped.

  Frames: each program terminates without a fault and leaves its arguments as launched — the kernel's by the
  pipeline's launch theorem over a body run once per control case (the table's side condition holds of every memory,
  the index being clipped), the reference's by its run.
  Equivalence over the extended reals, for adapter indices in [0, 16): both results are the one function `Spec.G`:
  format changes are the identity, a product block by block is the whole product (a re-grouping of a sum, no
  finiteness needed), and on [0, 16) the clip, the wrap and the gathers' clamp all leave the index as it is.
-/
import proofs.«414927_j48524540510408_3_alg».proof.Defs
import proofs.«414927_j48524540510408_3_alg».proof.Proof.Gen.Kernel
import proofs.«414927_j48524540510408_3_alg».proof.Proof.Gen.KernelIdeal
import proofs.«414927_j48524540510408_3_alg».proof.Proof.Gen.ReferenceIdeal
import proofs.«414927_j48524540510408_3_alg».proof.Proof.Gen.Pre_finite_inputs
import proofs.«414927_j48524540510408_3_alg».proof.Proof.Gen.ReferenceIdeal.Run
import proofs.«414927_j48524540510408_3_alg».proof.Proof.K.Frame
import proofs.«414927_j48524540510408_3_alg».proof.Proof.K.Table
import proofs.«414927_j48524540510408_3_alg».proof.Proof.KI.Final
import proofs.«414927_j48524540510408_3_alg».proof.Proof.Ref.Value
import proofs.«414927_j48524540510408_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Kernel.Fr.frame m ρ (Cert.Kernel.Fr.ok_all m)
theorem frame_ki : Cert.frame_KernelIdeal := fun m ρ _ => Cert.KernelIdeal.Fr.frame m ρ (Cert.KernelIdeal.Fr.ok_all m)
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## On indices in [0, 16) the two programs select the same adapter -/

open Cert.KernelIdeal Cert.KernelIdeal.Fr Cert.KernelIdeal.Val in
theorem adapters_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.RefValue.adR (aI m c) = adK m c := by
  funext b
  obtain ⟨h0, h16⟩ := Cert.PreFacts.idx_range _ (aI m c) _ _ _ (hpre c) (ix1 b)
  obtain ⟨hn, hlt, hint⟩ := Cert.PreFacts.word_range _ h0 h16
  apply Fin.ext
  show min (Cert.ReferenceIdeal.RefValue.wrapR (aI m c) b).toInt.toNat (16 - 1) = (clipw (aI m c (ix1 b))).toNat
  have hw : Cert.ReferenceIdeal.RefValue.wrapR (aI m c) b = aI m c (ix1 b) := by
    unfold Cert.ReferenceIdeal.RefValue.wrapR IntOp.cmpi
    simp only [hn]
    rfl
  rw [hw, hint, clipw_of_range _ (by rw [hn]; exact Bool.false_ne_true) h16]
  omega

/-! ## The two idealized programs compute one function -/

theorem algebraic : Cert.algebraic_KernelIdeal_ReferenceIdeal := by
  intro m ρ m' ρ' hpre hagree
  refine ⟨fun c => Cert.KernelIdeal.Val.Gk m c, Cert.KernelIdeal.Val.run m ρ (Cert.KernelIdeal.Fr.ok_all m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq,
    (hagree c).1, (hagree c).2.1, (hagree c).2.2.1, (hagree c).2.2.2.1, (hagree c).2.2.2.2]
  show Cert.Spec.Garr _ _ _ _ (Cert.ReferenceIdeal.RefValue.adR (Cert.KernelIdeal.Val.aI m c)) _ = Cert.KernelIdeal.Val.Gk m c
  rw [adapters_agree m hpre c]
  rfl

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
